-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S2x1000000 : Shape := ⟨2, ![2, 1000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg5 : IVec S16384 32) (main_arg6 : IVec S16384 32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg5 main_v19
  let main_c_7 : IVec S_ 32 := constantI S_ 32 100000#32
  let main_v21 : IVec S16384 32 := broadcastInDim S16384 ![] bcast_S_S16384 main_c_7
  let main_v22 : IVec S16384 1 := cmpi .slt main_arg5 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg6 main_v26
  let main_c_10 : IVec S_ 32 := constantI S_ 32 50000#32
  let main_v28 : IVec S16384 32 := broadcastInDim S16384 ![] bcast_S_S16384 main_c_10
  let main_v29 : IVec S16384 1 := cmpi .slt main_arg6 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : FVec F S100000x64 .f32) (main_arg1 : FVec F S50000x64 .f32) (main_arg2 : FVec F S100000x1 .f32) (main_arg3 : FVec F S50000x1 .f32) (main_arg4 : IVec S2x1000000 32) (main_arg5 : IVec S16384 32) (main_arg6 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg5 main_arg6 main_v13 main_v16
-- ==== Kernel.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S2x1000000 : Shape := ⟨2, ![2, 1000000]⟩
abbrev S16384 : Shape := ⟨1, ![16384]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩
abbrev S5000x64 : Shape := ⟨2, ![5000, 64]⟩
abbrev S100000x1x64 : Shape := ⟨3, ![100000, 1, 64]⟩
abbrev S50000x1x64 : Shape := ⟨3, ![50000, 1, 64]⟩
abbrev S100000x1x1 : Shape := ⟨3, ![100000, 1, 1]⟩
abbrev S50000x1x1 : Shape := ⟨3, ![50000, 1, 1]⟩
abbrev S16384x1x1 : Shape := ⟨3, ![16384, 1, 1]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩

abbrev nBuf : Space → Nat
  | .hbm => 114
  | .vmem => 20
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x1, .f32⟩
  | .hbm, ⟨3, _⟩ => ⟨S50000x1, .f32⟩
  | .hbm, ⟨4, _⟩ => ⟨S2x1000000, .i32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S2000000, .i32⟩
  | .hbm, ⟨13, _⟩ => ⟨S2000000, .i32⟩
  | .hbm, ⟨14, _⟩ => ⟨S_, .f32⟩
  | .hbm, ⟨15, _⟩ => ⟨S2000000, .f32⟩
  | .hbm, ⟨16, _⟩ => ⟨S_, .f32⟩
  | .hbm, ⟨17, _⟩ => ⟨S150000, .f32⟩
  | .hbm, ⟨18, _⟩ => ⟨S2000000x1, .i32⟩
  | .hbm, ⟨19, _⟩ => ⟨S150000, .f32⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .f32⟩
  | .hbm, ⟨26, _⟩ => ⟨S150000, .f32⟩
  | .hbm, ⟨27, _⟩ => ⟨S_, .f32⟩
  | .hbm, ⟨28, _⟩ => ⟨S150000, .f32⟩
  | .hbm, ⟨29, _⟩ => ⟨S150000, .i1⟩
  | .hbm, ⟨30, _⟩ => ⟨S_, .f32⟩
  | .hbm, ⟨31, _⟩ => ⟨S_, .f32⟩
  | .hbm, ⟨32, _⟩ => ⟨S150000, .f32⟩
  | .hbm, ⟨33, _⟩ => ⟨S150000, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000, .f32⟩
  | .hbm, ⟨52, _⟩ => ⟨S2000000, .f32⟩
  | .hbm, ⟨53, _⟩ => ⟨S150000x64, .f32⟩
  | .hbm, ⟨54, _⟩ => ⟨S2000000x1, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x64, .f32⟩
  | .hbm, ⟨64, _⟩ => ⟨S2000000x64, .f32⟩
  | .hbm, ⟨65, _⟩ => ⟨S2000000x64, .f32⟩
  | .hbm, ⟨66, _⟩ => ⟨S_, .f32⟩
  | .hbm, ⟨67, _⟩ => ⟨S150000x64, .f32⟩
  | .hbm, ⟨68, _⟩ => ⟨S2000000x1, .i32⟩
  | .hbm, ⟨69, _⟩ => ⟨S150000x64, .f32⟩
  | .hbm, ⟨70, _⟩ => ⟨S2000000x1, .f32⟩
  | .hbm, ⟨71, _⟩ => ⟨S_, .i32⟩
  | .hbm, ⟨72, _⟩ => ⟨S2000000, .i32⟩
  | .hbm, ⟨73, _⟩ => ⟨S2000000, .i1⟩
  | .hbm, ⟨74, _⟩ => ⟨S_, .i32⟩
  | .hbm, ⟨75, _⟩ => ⟨S2000000, .i32⟩
  | .hbm, ⟨76, _⟩ => ⟨S2000000, .i32⟩
  | .hbm, ⟨77, _⟩ => ⟨S2000000, .i32⟩
  | .hbm, ⟨78, _⟩ => ⟨S2000000x1, .i32⟩
  | .hbm, ⟨79, _⟩ => ⟨S2000000x64, .f32⟩
  | .hbm, ⟨80, _⟩ => ⟨S2000000x64, .f32⟩
  | .hbm, ⟨81, _⟩ => ⟨S2000000x64, .f32⟩
  | .hbm, ⟨82, _⟩ => ⟨S_, .f32⟩
  | .hbm, ⟨83, _⟩ => ⟨S150000x64, .f32⟩
  | .hbm, ⟨84, _⟩ => ⟨S2000000x1, .i32⟩
  | .hbm, ⟨85, _⟩ => ⟨S150000x64, .f32⟩
  | .hbm, ⟨86, _⟩ => ⟨S2000000x1, .f32⟩
  | .hbm, ⟨87, _⟩ => ⟨S_, .i32⟩
  | .hbm, ⟨88, _⟩ => ⟨S2000000, .i32⟩
  | .hbm, ⟨89, _⟩ => ⟨S2000000, .i1⟩
  | .hbm, ⟨90, _⟩ => ⟨S_, .i32⟩
  | .hbm, ⟨91, _⟩ => ⟨S2000000, .i32⟩
  | .hbm, ⟨92, _⟩ => ⟨S2000000, .i32⟩
  | .hbm, ⟨93, _⟩ => ⟨S2000000, .i32⟩
  | .hbm, ⟨94, _⟩ => ⟨S2000000x1, .i32⟩
  | .hbm, ⟨95, _⟩ => ⟨S2000000x64, .f32⟩
  | .hbm, ⟨96, _⟩ => ⟨S2000000x64, .f32⟩
  | .hbm, ⟨97, _⟩ => ⟨S2000000x64, .f32⟩
  | .hbm, ⟨98, _⟩ => ⟨S_, .f32⟩
  | .hbm, ⟨99, _⟩ => ⟨S150000x64, .f32⟩
  | .hbm, ⟨100, _⟩ => ⟨S2000000x1, .i32⟩
  | .hbm, ⟨101, _⟩ => ⟨S150000x64, .f32⟩
  | .hbm, ⟨102, _⟩ => ⟨S150000x64, .f32⟩
  | .hbm, ⟨103, _⟩ => ⟨S100000x64, .f32⟩
  | .hbm, ⟨104, _⟩ => ⟨S50000x64, .f32⟩
  | .hbm, ⟨105, _⟩ => ⟨S100000x1x64, .f32⟩
  | .hbm, ⟨106, _⟩ => ⟨S50000x1x64, .f32⟩
  | .hbm, ⟨107, _⟩ => ⟨S100000x1x1, .f32⟩
  | .hbm, ⟨108, _⟩ => ⟨S50000x1x1, .f32⟩
  | .hbm, ⟨109, _⟩ => ⟨S16384x1x1, .f32⟩
  | .hbm, ⟨110, _⟩ => ⟨S16384, .f32⟩
  | .hbm, ⟨111, _⟩ => ⟨S_, .f32⟩
  | .hbm, ⟨112, _⟩ => ⟨S16384, .f32⟩
  | .hbm, ⟨113, _⟩ => ⟨S16384, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .smem, ⟨0, _⟩ => ⟨S16384, .i32⟩
  | .local _ .smem, ⟨1, _⟩ => ⟨S16384, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v16 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16384], ![false]⟩

abbrev pre1 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  shapeCasts_S100000x64_S100000x1x64 : S100000x64.ShapeCasts S100000x1x64
  shapeCasts_S50000x64_S50000x1x64 : S50000x64.ShapeCasts S50000x1x64
  shapeCasts_S100000x1_S100000x1x1 : S100000x1.ShapeCasts S100000x1x1
  shapeCasts_S50000x1_S50000x1x1 : S50000x1.ShapeCasts S50000x1x1
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  reduces_S1x1x64_S1x1 : S1x1x64.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S16384x1x1_S16384 : S16384x1x1.ShapeCasts S16384
  bcast_S_S16384 : S_.BroadcastsInDim S16384 (![] : Fin 0 → Fin S16384.rank)
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hrank1 : 0 < grid1.rank
  k1_off1_inb : ∀ i : grid1.Coords, ∀ a, (k1_off1 i) a + S1.size a ≤ S16384.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S16384x1x1.size a
  hwx1_4 : ∀ i : grid1.Coords, EltTy.bits .f32 = 32 ∨ (Rect.block (s := S16384x1x1) S1x1x1.size (cc1_transform_4 i) (hinb1_4 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v33) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v76) S1x1x64.size reads1_0 false false 2 stage1_0 sem1_0 nbuf1_0 hstage1_0

abbrev spec1_1 : Pipeline.WinSpec sig grid1.rank :=
  Pipeline.WinSpec.ofSpec (Memref.whole main_v77) S1x1x64.size reads1_1 false false 2 stage1_1 sem1_1 nbuf1_1 hstage1_1

abbrev spec1_2 : Pipeline.WinSpec sig grid1.rank :=
  Pipeline.WinSpec.ofSpec (Memref.whole main_v78) S1x1x1.size reads1_2 false false 2 stage1_2 sem1_2 nbuf1_2 hstage1_2

abbrev spec1_3 : Pipeline.WinSpec sig grid1.rank :=
  Pipeline.WinSpec.ofSpec (Memref.whole main_v79) S1x1x1.size reads1_3 false false 2 stage1_3 sem1_3 nbuf1_3 hstage1_3

abbrev spec1_4 : Pipeline.WinSpec sig grid1.rank :=
  Pipeline.WinSpec.ofSpec (Memref.whole main_v80) S1x1x1.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S50000x1x64.size a), EltTy.bits .f32 = 32 ∨ (Rect.block (s := S50000x1x64) S1x1x64.size (cc1_transform_1 k1_off1_inb numel1_S1 pf i) h).WholeWords (EltTy.packing .f32)) ∧
  (∀ i : grid1.Coords, ∃ h : (∀ a, (cc1_transform_2 k1_off1_inb numel1_S1 pf i a + 1) * S1x1x1.size a ≤ S100000x1x1.size a), EltTy.bits .f32 = 32 ∨ (Rect.block (s := S100000x1x1) S1x1x1.size (cc1_transform_2 k1_off1_inb numel1_S1 pf i) h).WholeWords (EltTy.packing .f32)) ∧
  (∀ i : grid1.Coords, ∃ h : (∀ a, (cc1_transform_3 k1_off1_inb numel1_S1 pf i a + 1) * S1x1x1.size a ≤ S50000x1x1.size a), EltTy.bits .f32 = 32 ∨ (Rect.block (s := S50000x1x1) S1x1x1.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx1_4 | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S100000x64 : Shape := ⟨2, ![100000, 64]⟩
abbrev S50000x64 : Shape := ⟨2, ![50000, 64]⟩
abbrev S100000x1 : Shape := ⟨2, ![100000, 1]⟩
abbrev S50000x1 : Shape := ⟨2, ![50000, 1]⟩
abbrev S2x1000000 : Shape := ⟨2, ![2, 1000000]⟩
abbrev S16384 : Shape := ⟨1, ![16384]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩
abbrev S16384x1 : Shape := ⟨2, ![16384, 1]⟩
abbrev S16384x64 : Shape := ⟨2, ![16384, 64]⟩
abbrev S16384x2 : Shape := ⟨2, ![16384, 2]⟩

abbrev nBuf : Space → Nat
  | .hbm => 167
  | .vmem => 0
  | .smem => 0
  | _ => 0

abbrev hbmTy0_0 (i : Nat) : BufTy := match i % 128 with
  | 0 => ⟨S100000x64, .f32⟩
  | 1 => ⟨S50000x64, .f32⟩
  | 2 => ⟨S100000x1, .f32⟩
  | 3 => ⟨S50000x1, .f32⟩
  | 4 => ⟨S2x1000000, .i32⟩
  | 5 => ⟨S16384, .i32⟩
  | 6 => ⟨S16384, .i32⟩
  | 7 => ⟨S1x1000000, .i32⟩
  | 8 => ⟨S1000000, .i32⟩
  | 9 => ⟨S1x1000000, .i32⟩
  | 10 => ⟨S1000000, .i32⟩
  | 11 => ⟨S_, .i32⟩
  | 12 => ⟨S1000000, .i32⟩
  | 13 => ⟨S1000000, .i32⟩
  | 14 => ⟨S2000000, .i32⟩
  | 15 => ⟨S2000000, .i32⟩
  | 16 => ⟨S_, .f32⟩
  | 17 => ⟨S2000000, .f32⟩
  | 18 => ⟨S_, .f32⟩
  | 19 => ⟨S150000, .f32⟩
  | 20 => ⟨S2000000x1, .i32⟩
  | 21 => ⟨S150000, .f32⟩
  | 22 => ⟨S_, .f32⟩
  | 23 => ⟨S150000, .f32⟩
  | 24 => ⟨S150000, .f32⟩
  | 25 => ⟨S_, .f32⟩
  | 26 => ⟨S150000, .f32⟩
  | 27 => ⟨S150000, .f32⟩
  | 28 => ⟨S150000, .f32⟩
  | 29 => ⟨S_, .f32⟩
  | 30 => ⟨S150000, .f32⟩
  | 31 => ⟨S150000, .i1⟩
  | 32 => ⟨S_, .f32⟩
  | 33 => ⟨S_, .f32⟩
  | 34 => ⟨S150000, .f32⟩
  | 35 => ⟨S150000, .f32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S2000000, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000, .f32⟩
  | 54 => ⟨S2000000, .f32⟩
  | 55 => ⟨S150000x64, .f32⟩
  | 56 => ⟨S2000000x1, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S2000000x64, .f32⟩
  | 67 => ⟨S2000000x64, .f32⟩
  | 68 => ⟨S_, .f32⟩
  | 69 => ⟨S150000x64, .f32⟩
  | 70 => ⟨S2000000x1, .i32⟩
  | 71 => ⟨S150000x64, .f32⟩
  | 72 => ⟨S150000x64, .f32⟩
  | 73 => ⟨S2000000x1, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x64, .f32⟩
  | 83 => ⟨S2000000x64, .f32⟩
  | 84 => ⟨S2000000x64, .f32⟩
  | 85 => ⟨S_, .f32⟩
  | 86 => ⟨S150000x64, .f32⟩
  | 87 => ⟨S2000000x1, .i32⟩
  | 88 => ⟨S150000x64, .f32⟩
  | 89 => ⟨S150000x64, .f32⟩
  | 90 => ⟨S2000000x1, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x64, .f32⟩
  | 100 => ⟨S2000000x64, .f32⟩
  | 101 => ⟨S2000000x64, .f32⟩
  | 102 => ⟨S_, .f32⟩
  | 103 => ⟨S150000x64, .f32⟩
  | 104 => ⟨S2000000x1, .i32⟩
  | 105 => ⟨S150000x64, .f32⟩
  | 106 => ⟨S150000x64, .f32⟩
  | 107 => ⟨S_, .f32⟩
  | 108 => ⟨S150000x64, .f32⟩
  | 109 => ⟨S150000x64, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384x64, .f32⟩
  | 119 => ⟨S_, .i32⟩
  | 120 => ⟨S16384, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S100000x64, .f32⟩

abbrev hbmTy0_1 (i : Nat) : BufTy := match i % 128 with
  | 0 => ⟨S16384, .i32⟩
  | 1 => ⟨S16384x1, .i32⟩
  | 2 => ⟨S16384x64, .f32⟩
  | 3 => ⟨S16384x64, .f32⟩
  | 4 => ⟨S_, .f32⟩
  | 5 => ⟨S16384, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i32⟩
  | 16 => ⟨S16384x1, .i32⟩
  | 17 => ⟨S16384x1, .i32⟩
  | 18 => ⟨S16384x2, .i32⟩
  | 19 => ⟨S16384, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S_, .i32⟩
  | 28 => ⟨S16384, .i32⟩
  | 29 => ⟨S16384, .i32⟩
  | 30 => ⟨S16384x1, .i32⟩
  | 31 => ⟨S16384x1, .i32⟩
  | 32 => ⟨S16384x2, .i32⟩
  | 33 => ⟨S16384, .f32⟩
  | 34 => ⟨S16384, .f32⟩
  | 35 => ⟨S16384, .f32⟩
  | 36 => ⟨S_, .f32⟩
  | 37 => ⟨S16384, .f32⟩
  | 38 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v16 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_c_22 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_c_24 : Ref sig .tc := ⟨.hbm, 134, rfl⟩
abbrev main_v96 : Ref sig .tc := ⟨.hbm, 135, rfl⟩
abbrev main_v97 : Ref sig .tc := ⟨.hbm, 136, rfl⟩
abbrev main_c_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_26 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_27 : Ref sig .tc := ⟨.hbm, 148, rfl⟩
abbrev main_v107 : Ref sig .tc := ⟨.hbm, 149, rfl⟩
abbrev main_v108 : Ref sig .tc := ⟨.hbm, 150, rfl⟩
abbrev main_c_28 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_29 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_30 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  concatenates_S16384x1_S16384x1_S16384x2_d1 : Shape.Concatenates [S16384x1, S16384x1] S16384x2 1
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S16384x1_S16384x64_1_0_n_n_0_1_164_wf : GatherDims.WF S150000x64 S16384x1 S16384x64 [1] [0] [] [0] [] 1 ![1, 64]
  gather_S100000x1_S16384x2_S16384_n_01_n_n_01_1_11_wf : GatherDims.WF S100000x1 S16384x2 S16384 [] [0, 1] [] [0, 1] [] 1 ![1, 1]
  gather_S50000x1_S16384x2_S16384_n_01_n_n_01_1_11_wf : GatherDims.WF S50000x1 S16384x2 S16384 [] [0, 1] [] [0, 1] [] 1 ![1, 1]

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S16384x1_S16384x64_1_0_n_n_0_1_164 : GatherDims S150000x64 S16384x1 S16384x64 where
  offsetDims := [1]
  collapsedSliceDims := [0]
  operandBatchingDims := []
  startIndicesBatchingDims := []
  startIndexMap := [0]
  indexVectorDim := 1
  sliceSizes := ![1, 64]
  wf := gather_S150000x64_S16384x1_S16384x64_1_0_n_n_0_1_164_wf
def gather_S100000x1_S16384x2_S16384_n_01_n_n_01_1_11 : GatherDims S100000x1 S16384x2 S16384 where
  offsetDims := []
  collapsedSliceDims := [0, 1]
  operandBatchingDims := []
  startIndicesBatchingDims := []
  startIndexMap := [0, 1]
  indexVectorDim := 1
  sliceSizes := ![1, 1]
  wf := gather_S100000x1_S16384x2_S16384_n_01_n_n_01_1_11_wf
def gather_S50000x1_S16384x2_S16384_n_01_n_n_01_1_11 : GatherDims S50000x1 S16384x2 S16384 where
  offsetDims := []
  collapsedSliceDims := [0, 1]
  operandBatchingDims := []
  startIndicesBatchingDims := []
  startIndexMap := [0, 1]
  indexVectorDim := 1
  sliceSizes := ![1, 1]
  wf := gather_S50000x1_S16384x2_S16384_n_01_n_n_01_1_11_wf

class Facts : Prop extends Facts₀ where

variable [Facts]
-- ==== Proof.K.Mean.lean ====
/- Region 0 of the program: the mean over the four layer embeddings, one pallas_call on a grid of 30 row tiles.
   At any contents `V` of the TensorCore's buffers when the region is entered: the block each window stages at a
   grid point, what the body leaves in the output window's staging buffer (the one whole-block store, whose value is
   the sum of the four input blocks times one quarter), the body's triple, the pipeline's proof data and the body
   obligation at every point. Stated for any float instance. -/
import proofs.«409526_j29154238005727_3_alg».proof.Proof.Gen.Kernel.Launch
import proofs.«409526_j29154238005727_3_alg».proof.Proof.Gen.Kernel.Skeleton
import proofs.«409526_j29154238005727_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 5000·t … 5000·t + 4999 of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 5000 × 64 block. -/
abbrev rWhole0 : Rect S5000x64 := Rect.unit (s := S5000x64) ![0, 0] S5000x64.size inb_S5000x64_S5000x64_0_0

/-- The output window's staging buffer after the body, from the four input blocks: its single store. -/
def meanOut (x0 x1 x2 x3 : Vec F S5000x64 .f32) : Vec F S5000x64 .f32 :=
  View.canon [⟨rWhole0, k0_pay1 (View.ld x0 rWhole0) (View.ld x1 rWhole0) (View.ld x2 rWhole0) (View.ld x3 rWhole0)⟩]

/-- That store covers the block. -/
theorem meanCover (p0 : Vec F S5000x64 .f32) (y : S5000x64.Idx) :
    ∃ pc ∈ ([⟨rWhole0, p0⟩] : List (View.Piece (Elt F) S5000x64 .f32)), y ∈ pc.1.set :=
  View.cover_of_tiled [⟨rWhole0, p0⟩] S5000x64.size (by rfl) y

set_option maxHeartbeats 1000000 in
/-- The body on whole staging memrefs: the inputs held at `x0 … x3`, the output at anything; it ends with the inputs
    as they were and the output at `meanOut` of them. -/
theorem sound_mean (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S5000x64 .f32) (harg4 : arg4.IsWhole)
    (arg5 : Memref sig .tc .vmem S5000x64 .f32) (harg5 : arg5.IsWhole)
    (x0 x1 x2 x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (meanOut x0 x1 x2 x3)) -∗ K ⟨⟩))
      ⊢ wp frame (wpE (defs₀ (F := F)) Variants.none c none) E (cc0__mean_agg_kernel i arg1 harg1 arg2 harg2 arg3 harg3 arg4 harg4 arg5 harg5) K := by
  simp only [cc0__mean_agg_kernel_eq_skeleton]; unfold cc0__mean_agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (meanCover _)

/-- The proof data of the mean's pipeline on core `c`: the arrays as the region finds them; after the body each input's
    buffer still at its block and the output's at `meanOut` of the four blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => meanOut (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = meanOut (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_mean c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Readout.lean ====
/- Region 1 of the program: the batch readout, one pallas_call on a grid of 16384 queries whose four input windows are
   indexed by two prefetched tables (the user ids and the item ids). At any contents `V` of the TensorCore's buffers when
   the region is entered and any admissible contents `a` of the tables: the block each window stages at a grid point,
   what the body leaves in the output window's one-entry staging buffer (the sum over the 64 lanes of the product of the
   two staged rows, plus the two staged bias entries), the body's triple, the pipeline's proof data and the body obligation
   at every point. The body never reads the tables: they ride in the invariant, whole. Stated for any float instance. -/
import proofs.«409526_j29154238005727_3_alg».proof.Proof.Gen.Kernel.Launch
import proofs.«409526_j29154238005727_3_alg».proof.Proof.Gen.Kernel.Skeleton
import proofs.«409526_j29154238005727_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-- Window `w`'s block at grid point `t`, read off its array as the region finds it: for the four input windows the
    row the tables name at `t`, for the output window entry `t`. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's staging buffer holds its block when the body runs, whether the point fetched it or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 a) c) (hA : dat.A 3 = V c (Pipeline.arrRef spec1 3))
    (hafter : ∀ t, dat.after 3 t = iblk1 V a c 3 t) (t : Fin (cfg1 a).N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The two rectangles the body touches: a whole staged row of 64 lanes, and a whole one-entry block. -/
abbrev rRow : Rect S1x1x64 := Rect.unit (s := S1x1x64) ![0, 0, 0] S1x1x64.size inb_S1x1x64_S1x1x64_0_0_0
abbrev rOne : Rect S1x1x1 := Rect.unit (s := S1x1x1) ![0, 0, 0] S1x1x1.size inb_S1x1x1_S1x1x1_0_0_0

/-- The output window's staging buffer after the body, from the four input blocks: its single store. -/
def readOut (x0 x1 : Vec F S1x1x64 .f32) (x2 x3 : Vec F S1x1x1 .f32) : Vec F S1x1x1 .f32 :=
  View.canon [⟨rOne, k1_pay1 (View.ld x0 rRow) (View.ld x1 rRow) (View.ld x2 rOne) (View.ld x3 rOne)⟩]

/-- That store covers the one-entry block. -/
theorem readCover (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

set_option maxHeartbeats 1000000 in
/-- The body on whole staging memrefs: the four inputs held at `x0 … x3`, the output at anything, the two table memrefs
    not held at all (the body does not read them); it ends with the inputs as they were and the output at `readOut` of them. -/
theorem sound_readout (c : Dev nD) (E : Set ℕ) (i : grid1.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x1 .f32) (harg5 : arg5.IsWhole) (arg6 : Memref sig .tc .vmem S1x1x1 .f32) (harg6 : arg6.IsWhole)
    (arg7 : Memref sig .tc .vmem S1x1x1 .f32) (harg7 : arg7.IsWhole)
    (x0 x1 : Vec F S1x1x64 .f32) (x2 x3 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (readOut x0 x1 x2 x3)) -∗ K ⟨⟩))
      ⊢ wp frame (wpE (defs₀ (F := F)) Variants.none c none) E
          (cc1__readout_kernel i arg1 harg1 arg2 harg2 arg3 harg3 arg4 harg4 arg5 harg5 arg6 harg6 arg7 harg7) K := by
  simp only [cc1__readout_kernel_eq_skeleton]; unfold cc1__readout_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (readCover _)

/-- What the readout's pipeline keeps between points: the class invariant (the scoped rest and the generator register) and
    the two tables, whole, at the admissible contents. -/
def ΦR (c : Dev nD) : sProp 𝕄 :=
  iprop(Pipeline.ΦA spec1 c ∗ Pipeline.prefHeld pre1 c (fun _ => fullShare) a.1)

/-- The proof data of the readout's pipeline on core `c`: the arrays as the region finds them; after the body each input's
    buffer still at its block and the output's at `readOut` of the four blocks; the invariant `ΦR`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => readOut (iblk1 V a c 0 t) (iblk1 V a c 1 t) (iblk1 V a c 2 t) (iblk1 V a c 3 t)
  Φ _ := ΦR a c
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) :
    (dat1 V a c).after 4 t = readOut (iblk1 V a c 0 t) (iblk1 V a c 1 t) (iblk1 V a c 2 t) (iblk1 V a c 3 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d
theorem before1_3 (c : Dev nD) (t : Fin (cfg1 a).N) (d) : (dat1 V a c).before 3 t d = iblk1 V a c 3 t :=
  before1_3_of V a (dat1 V a c) (A_eq1 V a c 3) (after1_3 V a c) t d

/-- Each window's current staging memref at point `t`, and the body as the pipeline calls it there. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)
abbrev bodyAt1 (t : Fin (cfg1 a).N) : Prog (TpuEff nD τ sig (Elt F) Λ₀ .tc) PUnit :=
  cc1__readout_kernel (grid1.coords t) (Memref.whole main_arg5) (Memref.isWhole_whole _) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t)
    ∗ owns (c : Thread nD τ) (st1_4 a t) fullShare ((dat1 V a c).after 4 t))

theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_readout c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.Kernel.Frm

end
-- ==== Proof.K.Fold.lean ====
/- The contents of the TensorCore's buffers at every boundary between two segments of the program, as a fold from the
   launch memory: a stretch of host operations takes a valuation to the operations' results over it; a pallas_call takes
   it to the same valuation with its windows' arrays at what the pipeline's write-backs leave. The two id tables the
   readout's index maps read are taken straight from the launch memory (no host operation writes them), and the
   readout's pipeline is pinned at those contents whenever every table-indexed block lies inside its array. -/
import proofs.«409526_j29154238005727_3_alg».proof.Proof.K.Mean
import proofs.«409526_j29154238005727_3_alg».proof.Proof.K.Readout

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two id tables, and the readout's pipeline at them -/

/-- The tables' contents: the user ids and the item ids as launched (there is one device). -/
def tbl : pre1.Contents (Elt F) := fun j => m (((0 : Dev nD) : Thread nD τ).loc (pre1.ref j))

/-- Every block the tables index lies inside its array: the readout's side condition at the launched tables. -/
abbrev Ok : Prop := ok1 (F := F) (tbl m)

/-- The launched tables as admissible contents, and every pipeline's admissible contents. -/
abbrev adm1 (hO : Ok m) : (pcfg1 (F := F)).Adm := ⟨tbl m, hO⟩
abbrev adm (hO : Ok m) : (p : Fin 2) → (pcfgs (F := F) p).Adm
  | ⟨0, _⟩ => cfg0.toPCfg_adm
  | ⟨1, _⟩ => adm1 m hO

/-! ## The fold through the segments -/

/-- At launch. -/
abbrev W0 : Dev nD → Valuation τ sig (Elt F) := fun c b => (s₀ m ρ).mem ((c : Dev nD), b)
/-- After the five stretches of host operations before the mean's pallas_call (degrees, normalisation, the three
    propagation layers): the mean's entry. -/
abbrev W1 : Dev nD → Valuation τ sig (Elt F) := fun c => StableHlo.after hostOps0 (W0 m ρ c)
abbrev W1a : Dev nD → Valuation τ sig (Elt F) := fun c => StableHlo.after hostOps0_1 (W1 m ρ c)
abbrev W1b : Dev nD → Valuation τ sig (Elt F) := fun c => StableHlo.after hostOps0_2 (W1a m ρ c)
abbrev W1c : Dev nD → Valuation τ sig (Elt F) := fun c => StableHlo.after hostOps0_3 (W1b m ρ c)
abbrev W1d : Dev nD → Valuation τ sig (Elt F) := fun c => StableHlo.after hostOps0_4 (W1c m ρ c)
abbrev V1 : (c : Dev nD) → (b : Ref sig .tc) → Buf (Elt F) ((c : Thread nD τ).loc b) := fun c b => W1d m ρ c b

/-- At the mean's exit: its five arrays at what the pipeline leaves, every other buffer as entered. -/
def W2 (c : Dev nD) : Valuation τ sig (Elt F) :=
  Pipeline.withArrays spec0 c (W1d m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1d m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the slices and reshapes that cut the mean table into its user rows and item rows: the readout's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the readout's exit. -/
def W4 (hO : Ok m) (c : Dev nD) : Valuation τ sig (Elt F) :=
  Pipeline.withArrays spec1 c (W3 m ρ c) fun w => (dat1 (V3 m ρ) (adm1 m hO) c).arrAt w (cfg1 (adm1 m hO)).N
theorem W4_arr (hO : Ok m) (c : Dev nD) (w : Fin (cfg1 (adm1 m hO)).W) :
    W4 m ρ hO c (Proc.devRef .tc (Pipeline.arrRef spec1 w)) = (dat1 (V3 m ρ) (adm1 m hO) c).arrAt w (cfg1 (adm1 m hO)).N := by
  unfold W4; exact Pipeline.withArrays_arr spec1 (launch1 (F := F)).win.arr_inj c _ _ w
theorem W4_of_ne (hO : Ok m) (c : Dev nD) (b : Ref sig .tc) (hb : ∀ w, Pipeline.arrRef spec1 w ≠ b) :
    W4 m ρ hO c (Proc.devRef .tc b) = W3 m ρ c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m ρ hO c b
theorem hF1 (hO : Ok m) (c : Dev nD) (w : Fin (cfg1 (adm1 m hO)).W) :
    (dat1 (V3 m ρ) (adm1 m hO) c).arrAt w (cfg1 (adm1 m hO)).N = V4 m ρ hO c (Pipeline.arrRef spec1 w) :=
  (W4_arr m ρ hO c w).symm
theorem hrest1 (hO : Ok m) (c : Dev nD) : ∀ b, b ∉ Finset.univ.image (Pipeline.arrRef spec1) → V4 m ρ hO c b = V3 m ρ c b :=
  fun b hb => W4_of_ne m ρ hO c b fun w e => hb (Finset.mem_image.mpr ⟨w, Finset.mem_univ _, e⟩)

/-- After the closing reshape and the addition of the global mean (zero): the end. -/
abbrev W5 (hO : Ok m) : Dev nD → Valuation τ sig (Elt F) := fun c => StableHlo.after hostOps2 (W4 m ρ hO c)

/-! ## No host operation writes an argument -/

/-- Every reference some host operation writes: all of the program's value buffers, and none of its seven arguments. -/
abbrev hostW : List (Ref sig .tc) := [main_v0, main_v1, main_v2, main_v3, main_c, main_v4, main_v5, main_v6, main_v7, main_cst, main_v8, main_cst_0, main_v9, main_v10, main_v11, main_cst_1, main_v12, main_v13, main_cst_2, main_v14, main_v15, main_call0_v0, main_call0_cst, main_call0_v1, main_v16, main_cst_3, main_call1_v0, main_call1_v1, main_v17, main_c_4, main_v18, main_v19, main_c_5, main_v20, main_v21, main_v22, main_v23, main_v24, main_c_6, main_v25, main_v26, main_c_7, main_v27, main_v28, main_v29, main_v30, main_v31, main_v32, main_v33, main_v34, main_c_8, main_v35, main_v36, main_c_9, main_v37, main_v38, main_v39, main_v40, main_v41, main_v42, main_v43, main_cst_10, main_v44, main_v45, main_v46, main_v47, main_c_11, main_v48, main_v49, main_c_12, main_v50, main_v51, main_v52, main_v53, main_v54, main_v55, main_v56, main_cst_13, main_v57, main_v58, main_v59, main_v60, main_c_14, main_v61, main_v62, main_c_15, main_v63, main_v64, main_v65, main_v66, main_v67, main_v68, main_v69, main_cst_16, main_v70, main_v71, main_v72, main_v73, main_v74, main_v75, main_v76, main_v77, main_v78, main_v79, main_v80, main_v81, main_cst_17, main_v82, main_v83]

end Cert.Kernel.Frm

end
-- ==== Proof.K.Run.lean ====
/- The program's run, from the launch to the return: nine segments — five stretches of host operations (degrees,
   normalisation, the three propagation layers), the mean's pallas_call, the slices and reshapes that cut the mean table into
   user rows and item rows, the readout's pallas_call, and the closing reshape and addition. Between two segments the thread
   holds every unscoped buffer at the boundary's contents (the fold of the previous module), the generator register at some
   state, and owes nothing. A stretch of host operations moves the contents along the fold; a pallas_call takes its windows'
   arrays out of the unscoped buffers at entry and puts them back, at what its write-backs leave, at exit; the readout also
   takes its two id tables out, whole, and gives them back unchanged. The result: every weakly fair execution terminates,
   nothing faults, and every unscoped buffer ends at the fold's last contents. No host operation writes an argument and no
   pallas_call has one as a window's array, so the fold at an argument is the launch memory. Stated for any float instance. -/
import proofs.«409526_j29154238005727_3_alg».proof.Proof.K.Fold

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that none allocates -/

set_option maxHeartbeats 4000000 in
theorem hostOps0_writes : (hostOps0 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_writes : (hostOps0_1 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_writes : (hostOps0_2 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_writes : (hostOps0_3 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_writes : (hostOps0_4 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps1_writes : (hostOps1 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_fresh : (hostOps1 : List (HloOp τ sig (Elt F))).Forall fun op => op.fresh = ∅ := by
  simp only [List.Forall]; repeat' constructor
set_option maxHeartbeats 4000000 in
theorem hostOps2_writes : (hostOps2 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps2_fresh : (hostOps2 : List (HloOp τ sig (Elt F))).Forall fun op => op.fresh = ∅ := by
  simp only [List.Forall]; repeat' constructor

/-! ## A buffer no segment writes keeps its launch contents through the fold -/

theorem W1d_of (c : Dev nD) (r : Ref sig .tc) (h : r ∉ hostW) : W1d m ρ c (Proc.devRef .tc r) = W0 m ρ c (Proc.devRef .tc r) :=
  (StableHlo.after_of_writes_sub hostOps0_4 (W1c m ρ c) hostOps0_4_writes h).trans <|
  (StableHlo.after_of_writes_sub hostOps0_3 (W1b m ρ c) hostOps0_3_writes h).trans <|
  (StableHlo.after_of_writes_sub hostOps0_2 (W1a m ρ c) hostOps0_2_writes h).trans <|
  (StableHlo.after_of_writes_sub hostOps0_1 (W1 m ρ c) hostOps0_1_writes h).trans <|
  StableHlo.after_of_writes_sub hostOps0 (W0 m ρ c) hostOps0_writes h

theorem W3_of (c : Dev nD) (r : Ref sig .tc) (h : r ∉ hostW) (h0 : ∀ w, Pipeline.arrRef spec0 w ≠ r) :
    W3 m ρ c (Proc.devRef .tc r) = m ((c : Thread nD τ).loc r) :=
  (StableHlo.after_of_writes_sub hostOps1 (W2 m ρ c) hostOps1_writes h).trans <|
  (W2_of_ne m ρ c r h0).trans <| W1d_of m ρ c r h

theorem W5_of (hO : Ok m) (c : Dev nD) (r : Ref sig .tc) (h : r ∉ hostW) (h0 : ∀ w, Pipeline.arrRef spec0 w ≠ r)
    (h1 : ∀ w, Pipeline.arrRef spec1 w ≠ r) : W5 m ρ hO c (Proc.devRef .tc r) = m ((c : Thread nD τ).loc r) :=
  (StableHlo.after_of_writes_sub hostOps2 (W4 m ρ hO c) hostOps2_writes h).trans <|
  (W4_of_ne m ρ hO c r h1).trans <| W3_of m ρ c r h h0

/-- The two id tables reach the readout as launched. -/
theorem tbl_V3 (c : Dev nD) : (fun k => V3 m ρ c (pre1.ref k)) = tbl m := by
  obtain rfl : c = 0 := Subsingleton.elim _ _
  funext k
  match k with
  | ⟨0, _⟩ => exact W3_of m ρ 0 main_arg5 (by decide) (by decide)
  | ⟨1, _⟩ => exact W3_of m ρ 0 main_arg6 (by decide) (by decide)

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (V1 m ρ) c
  | ⟨1, _⟩ => fun c => dat1 (V3 m ρ) (adm1 m hO) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers at contents `W`. -/
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the fold's last contents. -/
abbrev Tₙ (hO : Ok m) (c : Dev nD) : sProp 𝕄 :=
  iprop(StableHlo.held (c : Thread nD τ) (Pipeline.ucRefs τ sig) (W5 m ρ hO c) ∗ ∃ r, prngReg c r)

/-! ## The two pallas_calls as segments -/

set_option backward.isDefEq.respectTransparency.types false in
/-- The mean: entered from every unscoped buffer at `W1d`, left at `W2`. -/
def reg0 (hO : Ok m) : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1d m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The readout: entered from every unscoped buffer at `W3`, left at `W4`. Of the unscoped buffers that are no window's
    array the two id tables go to the pipeline whole, at the launched contents, ride in its invariant, and come back. -/
def reg1 (hO : Ok m) : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm1 m hO) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hO c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (V3 m ρ c) fun _ => rfl
    have hs : (Pipeline.unscopedRest (Ix := Unit) (Name := ℕ) (U := UR sig nD τ) (Lvl := ℕ) (Pipeline.pin (pcfgs (F := F)) (adm m hO) 1).spec c (V3 m ρ c) : sProp 𝕄)
        = iprop(Pipeline.prefHeld pre1 c (fun _ => fullShare) (tbl m) ∗ Pipeline.unscopedRestP pre1 spec1 c (V3 m ρ c)) :=
      (Pipeline.unscopedRest_split preFacts1 c (V3 m ρ c)).trans (by rw [tbl_V3 m ρ c])
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = ΦR (adm1 m hO) c from rfl]; unfold ΦR Pipeline.ΦA
    iintro ⟨Hp, Hpf, Hr⟩
    isplitl [Hr Hp]
    · isplitl [Hr]; · iexact Hr
      iexact Hp
    iexact Hpf
  hout c := by
    rw [Pipeline.ownSems0_none, show (pdats m ρ hO 1 c).Φ (Fin.last _) = ΦR (adm1 m hO) c from rfl]; unfold ΦR Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (V3 m ρ c) (V4 m ρ hO c) ((pdats m ρ hO 1 c).arrAt · (cfg1 (adm1 m hO)).N) (hF1 m ρ hO c) (hrest1 m ρ hO c)
    have hs : (Pipeline.unscopedRest (Ix := Unit) (Name := ℕ) (U := UR sig nD τ) (Lvl := ℕ) (Pipeline.pin (pcfgs (F := F)) (adm m hO) 1).spec c (V3 m ρ c) : sProp 𝕄)
        = iprop(Pipeline.prefHeld pre1 c (fun _ => fullShare) (tbl m) ∗ Pipeline.unscopedRestP pre1 spec1 c (V3 m ρ c)) :=
      (Pipeline.unscopedRest_split preFacts1 c (V3 m ρ c)).trans (by rw [tbl_V3 m ρ c])
    rw [Pipeline.unscopedBufs_held, hs] at hjoin
    iintro ⟨Ha, HO, ⟨Hp, Hpf⟩, Hrest⟩
    imodintro
    isplitl [Ha Hrest Hpf]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

/-! ## The program as its segments, and the launch -/

abbrev segs (hO : Ok m) : List (Pipeline.Seg (pcfgs (F := F)) (adm m hO) (pdats m ρ hO) () defs₀ 𝒱₀ L lv) :=
  [ .host (hseg m hO hostOps0 hostOps0_sub hostOps0_fresh (W0 m ρ)),
    .host (hseg m hO hostOps0_1 hostOps0_1_sub hostOps0_1_fresh (W1 m ρ)),
    .host (hseg m hO hostOps0_2 hostOps0_2_sub hostOps0_2_fresh (W1a m ρ)),
    .host (hseg m hO hostOps0_3 hostOps0_3_sub hostOps0_3_fresh (W1b m ρ)),
    .host (hseg m hO hostOps0_4 hostOps0_4_sub hostOps0_4_fresh (W1c m ρ)),
    .region (reg0 m ρ hO),
    .host (hseg m hO hostOps1 hostOps1_sub hostOps1_fresh (W2 m ρ)),
    .region (reg1 m ρ hO),
    .host (hseg m hO hostOps2 hostOps2_sub hostOps2_fresh (W4 m ρ hO)) ]

set_option maxHeartbeats 4000000 in
/-- The program is the run of its segments. -/
theorem main_run (hO : Ok m) (c : Dev nD) : main (F := F) c = Pipeline.Seg.run (segs m ρ hO) := (main_chain c).trans (by chain_rfl)

set_option backward.isDefEq.respectTransparency.types false in
set_option maxHeartbeats 4000000 in
/-- From any memory with zero counters, whenever the launched id tables index blocks inside their arrays: every weakly
    fair execution of the program terminates, nothing faulting, and every unscoped buffer of every core ends at the fold's
    last contents. -/
theorem run_main (hO : Ok m) : θ_run defs (onTc (τ := τ) (main (F := F))) ⟨m, fun _ => 0, ρ⟩
    (fun r => ∀ c : Dev nD, ∀ b ∈ Pipeline.ucRefs τ sig, r.2.mem (((c : Thread nD τ)).1, b) = W5 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W5 m ρ hO c) ∗ R c)
          ⊢ iprop(Tₙ m ρ hO c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ hO c) s')
      isplitl [Hh] <;> iassumption)
    (hQ := fun s h c => h c)

/-- The frame: under the same hypothesis every execution terminates without a fault and the seven arguments end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_of m ρ hO c main_arg0 (by decide) (by decide) (by decide)),
     (h c _ (mem_uc main_arg1 (by decide))).trans (W5_of m ρ hO c main_arg1 (by decide) (by decide) (by decide)),
     (h c _ (mem_uc main_arg2 (by decide))).trans (W5_of m ρ hO c main_arg2 (by decide) (by decide) (by decide)),
     (h c _ (mem_uc main_arg3 (by decide))).trans (W5_of m ρ hO c main_arg3 (by decide) (by decide) (by decide)),
     (h c _ (mem_uc main_arg4 (by decide))).trans (W5_of m ρ hO c main_arg4 (by decide) (by decide) (by decide)),
     (h c _ (mem_uc main_arg5 (by decide))).trans (W5_of m ρ hO c main_arg5 (by decide) (by decide) (by decide)),
     (h c _ (mem_uc main_arg6 (by decide))).trans (W5_of m ρ hO c main_arg6 (by decide) (by decide) (by decide))⟩)
    (run_main m ρ hO)

end Cert.Kernel.Frm

end
-- ==== Proof.K.Ok.lean ====
/- The readout's side condition from the ids' ranges: a user id below 100000 names a row of the 100000-row user tables
   (the mean table's user rows, one row of 64 lanes, and the user bias column), an item id below 50000 a row of the 50000-row
   item tables, so every block the two id tables index lies inside its array: on the indexed axis (id + 1) · 1 ≤ rows, and on
   the two trailing axes the block is the whole extent. Stated for any float instance. -/
import proofs.«409526_j29154238005727_3_alg».proof.Proof.K.Fold

set_option maxRecDepth 16384

noncomputable section

namespace Cert.Kernel.Frm

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem ok_of_ids (hu : ∀ x, (tbl m 0 x).toNat < 100000) (hv : ∀ x, (tbl m 1 x).toNat < 50000) : Ok m := by
  refine ⟨fun i => ?_, fun i => ?_, fun i => ?_, fun i => ?_⟩
  · obtain ⟨w, hw, e⟩ : ∃ w : BitVec 32, w.toNat < 100000 ∧ cc1_transform_0 k1_off1_inb numel1_S1 (tbl m) i = ![w.toNat, 0, 0] :=
      ⟨_, hu _, rfl⟩
    refine ⟨fun a => ?_, Or.inl rfl⟩
    rw [e]
    fin_cases a <;> simp [S1x1x64, S100000x1x64] <;> omega
  · obtain ⟨w, hw, e⟩ : ∃ w : BitVec 32, w.toNat < 50000 ∧ cc1_transform_1 k1_off1_inb numel1_S1 (tbl m) i = ![w.toNat, 0, 0] :=
      ⟨_, hv _, rfl⟩
    refine ⟨fun a => ?_, Or.inl rfl⟩
    rw [e]
    fin_cases a <;> simp [S1x1x64, S50000x1x64] <;> omega
  · obtain ⟨w, hw, e⟩ : ∃ w : BitVec 32, w.toNat < 100000 ∧ cc1_transform_2 k1_off1_inb numel1_S1 (tbl m) i = ![w.toNat, 0, 0] :=
      ⟨_, hu _, rfl⟩
    refine ⟨fun a => ?_, Or.inl rfl⟩
    rw [e]
    fin_cases a <;> simp [S1x1x1, S100000x1x1] <;> omega
  · obtain ⟨w, hw, e⟩ : ∃ w : BitVec 32, w.toNat < 50000 ∧ cc1_transform_3 k1_off1_inb numel1_S1 (tbl m) i = ![w.toNat, 0, 0] :=
      ⟨_, hv _, rfl⟩
    refine ⟨fun a => ?_, Or.inl rfl⟩
    rw [e]
    fin_cases a <;> simp [S1x1x1, S50000x1x1] <;> omega

end Cert.Kernel.Frm

end
-- ==== Proof.KI.Mean.lean ====
/- Region 0 of the program: the mean over the four layer embeddings, one pallas_call on a grid of 30 row tiles.
   At any contents `V` of the TensorCore's buffers when the region is entered: the block each window stages at a
   grid point, what the body leaves in the output window's staging buffer (the one whole-block store, whose value is
   the sum of the four input blocks times one quarter), the body's triple, the pipeline's proof data and the body
   obligation at every point. Stated for any float instance. -/
import proofs.«409526_j29154238005727_3_alg».proof.Proof.Gen.KernelIdeal.Launch
import proofs.«409526_j29154238005727_3_alg».proof.Proof.Gen.KernelIdeal.Skeleton
import proofs.«409526_j29154238005727_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 5000·t … 5000·t + 4999 of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 5000 × 64 block. -/
abbrev rWhole0 : Rect S5000x64 := Rect.unit (s := S5000x64) ![0, 0] S5000x64.size inb_S5000x64_S5000x64_0_0

/-- The output window's staging buffer after the body, from the four input blocks: its single store. -/
def meanOut (x0 x1 x2 x3 : Vec F S5000x64 .f32) : Vec F S5000x64 .f32 :=
  View.canon [⟨rWhole0, k0_pay1 (View.ld x0 rWhole0) (View.ld x1 rWhole0) (View.ld x2 rWhole0) (View.ld x3 rWhole0)⟩]

/-- That store covers the block. -/
theorem meanCover (p0 : Vec F S5000x64 .f32) (y : S5000x64.Idx) :
    ∃ pc ∈ ([⟨rWhole0, p0⟩] : List (View.Piece (Elt F) S5000x64 .f32)), y ∈ pc.1.set :=
  View.cover_of_tiled [⟨rWhole0, p0⟩] S5000x64.size (by rfl) y

set_option maxHeartbeats 1000000 in
/-- The body on whole staging memrefs: the inputs held at `x0 … x3`, the output at anything; it ends with the inputs
    as they were and the output at `meanOut` of them. -/
theorem sound_mean (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S5000x64 .f32) (harg4 : arg4.IsWhole)
    (arg5 : Memref sig .tc .vmem S5000x64 .f32) (harg5 : arg5.IsWhole)
    (x0 x1 x2 x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (meanOut x0 x1 x2 x3)) -∗ K ⟨⟩))
      ⊢ wp frame (wpE (defs₀ (F := F)) Variants.none c none) E (cc0__mean_agg_kernel i arg1 harg1 arg2 harg2 arg3 harg3 arg4 harg4 arg5 harg5) K := by
  simp only [cc0__mean_agg_kernel_eq_skeleton]; unfold cc0__mean_agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (meanCover _)

/-- The proof data of the mean's pipeline on core `c`: the arrays as the region finds them; after the body each input's
    buffer still at its block and the output's at `meanOut` of the four blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => meanOut (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = meanOut (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_mean c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Readout.lean ====
/- Region 1 of the program: the batch readout, one pallas_call on a grid of 16384 queries whose four input windows are
   indexed by two prefetched tables (the user ids and the item ids). At any contents `V` of the TensorCore's buffers when
   the region is entered and any admissible contents `a` of the tables: the block each window stages at a grid point,
   what the body leaves in the output window's one-entry staging buffer (the sum over the 64 lanes of the product of the
   two staged rows, plus the two staged bias entries), the body's triple, the pipeline's proof data and the body obligation
   at every point. The body never reads the tables: they ride in the invariant, whole. Stated for any float instance. -/
import proofs.«409526_j29154238005727_3_alg».proof.Proof.Gen.KernelIdeal.Launch
import proofs.«409526_j29154238005727_3_alg».proof.Proof.Gen.KernelIdeal.Skeleton
import proofs.«409526_j29154238005727_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-- Window `w`'s block at grid point `t`, read off its array as the region finds it: for the four input windows the
    row the tables name at `t`, for the output window entry `t`. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's staging buffer holds its block when the body runs, whether the point fetched it or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 a) c) (hA : dat.A 3 = V c (Pipeline.arrRef spec1 3))
    (hafter : ∀ t, dat.after 3 t = iblk1 V a c 3 t) (t : Fin (cfg1 a).N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The two rectangles the body touches: a whole staged row of 64 lanes, and a whole one-entry block. -/
abbrev rRow : Rect S1x1x64 := Rect.unit (s := S1x1x64) ![0, 0, 0] S1x1x64.size inb_S1x1x64_S1x1x64_0_0_0
abbrev rOne : Rect S1x1x1 := Rect.unit (s := S1x1x1) ![0, 0, 0] S1x1x1.size inb_S1x1x1_S1x1x1_0_0_0

/-- The output window's staging buffer after the body, from the four input blocks: its single store. -/
def readOut (x0 x1 : Vec F S1x1x64 .f32) (x2 x3 : Vec F S1x1x1 .f32) : Vec F S1x1x1 .f32 :=
  View.canon [⟨rOne, k1_pay1 (View.ld x0 rRow) (View.ld x1 rRow) (View.ld x2 rOne) (View.ld x3 rOne)⟩]

/-- That store covers the one-entry block. -/
theorem readCover (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

set_option maxHeartbeats 1000000 in
/-- The body on whole staging memrefs: the four inputs held at `x0 … x3`, the output at anything, the two table memrefs
    not held at all (the body does not read them); it ends with the inputs as they were and the output at `readOut` of them. -/
theorem sound_readout (c : Dev nD) (E : Set ℕ) (i : grid1.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x1 .f32) (harg5 : arg5.IsWhole) (arg6 : Memref sig .tc .vmem S1x1x1 .f32) (harg6 : arg6.IsWhole)
    (arg7 : Memref sig .tc .vmem S1x1x1 .f32) (harg7 : arg7.IsWhole)
    (x0 x1 : Vec F S1x1x64 .f32) (x2 x3 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (readOut x0 x1 x2 x3)) -∗ K ⟨⟩))
      ⊢ wp frame (wpE (defs₀ (F := F)) Variants.none c none) E
          (cc1__readout_kernel i arg1 harg1 arg2 harg2 arg3 harg3 arg4 harg4 arg5 harg5 arg6 harg6 arg7 harg7) K := by
  simp only [cc1__readout_kernel_eq_skeleton]; unfold cc1__readout_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (readCover _)

/-- What the readout's pipeline keeps between points: the class invariant (the scoped rest and the generator register) and
    the two tables, whole, at the admissible contents. -/
def ΦR (c : Dev nD) : sProp 𝕄 :=
  iprop(Pipeline.ΦA spec1 c ∗ Pipeline.prefHeld pre1 c (fun _ => fullShare) a.1)

/-- The proof data of the readout's pipeline on core `c`: the arrays as the region finds them; after the body each input's
    buffer still at its block and the output's at `readOut` of the four blocks; the invariant `ΦR`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => readOut (iblk1 V a c 0 t) (iblk1 V a c 1 t) (iblk1 V a c 2 t) (iblk1 V a c 3 t)
  Φ _ := ΦR a c
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = iblk1 V a c 3 t := by dsimp only [dat1]; try rfl
theorem after1_4 (c : Dev nD) (t : Fin (cfg1 a).N) :
    (dat1 V a c).after 4 t = readOut (iblk1 V a c 0 t) (iblk1 V a c 1 t) (iblk1 V a c 2 t) (iblk1 V a c 3 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d
theorem before1_3 (c : Dev nD) (t : Fin (cfg1 a).N) (d) : (dat1 V a c).before 3 t d = iblk1 V a c 3 t :=
  before1_3_of V a (dat1 V a c) (A_eq1 V a c 3) (after1_3 V a c) t d

/-- Each window's current staging memref at point `t`, and the body as the pipeline calls it there. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)
abbrev bodyAt1 (t : Fin (cfg1 a).N) : Prog (TpuEff nD τ sig (Elt F) Λ₀ .tc) PUnit :=
  cc1__readout_kernel (grid1.coords t) (Memref.whole main_arg5) (Memref.isWhole_whole _) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d))
    ∗ (∃ d, owns (c : Thread nD τ) (st1_4 a t) fullShare ((dat1 V a c).before 4 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ owns (c : Thread nD τ) (st1_3 a t) fullShare ((dat1 V a c).after 3 t)
    ∗ owns (c : Thread nD τ) (st1_4 a t) fullShare ((dat1 V a c).after 4 t))

theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_readout c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Frm

end
-- ==== Proof.KI.Fold.lean ====
/- The contents of the TensorCore's buffers at every boundary between two segments of the program, as a fold from the
   launch memory: a stretch of host operations takes a valuation to the operations' results over it; a pallas_call takes
   it to the same valuation with its windows' arrays at what the pipeline's write-backs leave. The two id tables the
   readout's index maps read are taken straight from the launch memory (no host operation writes them), and the
   readout's pipeline is pinned at those contents whenever every table-indexed block lies inside its array. -/
import proofs.«409526_j29154238005727_3_alg».proof.Proof.KI.Mean
import proofs.«409526_j29154238005727_3_alg».proof.Proof.KI.Readout

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two id tables, and the readout's pipeline at them -/

/-- The tables' contents: the user ids and the item ids as launched (there is one device). -/
def tbl : pre1.Contents (Elt F) := fun j => m (((0 : Dev nD) : Thread nD τ).loc (pre1.ref j))

/-- Every block the tables index lies inside its array: the readout's side condition at the launched tables. -/
abbrev Ok : Prop := ok1 (F := F) (tbl m)

/-- The launched tables as admissible contents, and every pipeline's admissible contents. -/
abbrev adm1 (hO : Ok m) : (pcfg1 (F := F)).Adm := ⟨tbl m, hO⟩
abbrev adm (hO : Ok m) : (p : Fin 2) → (pcfgs (F := F) p).Adm
  | ⟨0, _⟩ => cfg0.toPCfg_adm
  | ⟨1, _⟩ => adm1 m hO

/-! ## The fold through the segments -/

/-- At launch. -/
abbrev W0 : Dev nD → Valuation τ sig (Elt F) := fun c b => (s₀ m ρ).mem ((c : Dev nD), b)
/-- After the five stretches of host operations before the mean's pallas_call (degrees, normalisation, the three
    propagation layers): the mean's entry. -/
abbrev W1 : Dev nD → Valuation τ sig (Elt F) := fun c => StableHlo.after hostOps0 (W0 m ρ c)
abbrev W1a : Dev nD → Valuation τ sig (Elt F) := fun c => StableHlo.after hostOps0_1 (W1 m ρ c)
abbrev W1b : Dev nD → Valuation τ sig (Elt F) := fun c => StableHlo.after hostOps0_2 (W1a m ρ c)
abbrev W1c : Dev nD → Valuation τ sig (Elt F) := fun c => StableHlo.after hostOps0_3 (W1b m ρ c)
abbrev W1d : Dev nD → Valuation τ sig (Elt F) := fun c => StableHlo.after hostOps0_4 (W1c m ρ c)
abbrev V1 : (c : Dev nD) → (b : Ref sig .tc) → Buf (Elt F) ((c : Thread nD τ).loc b) := fun c b => W1d m ρ c b

/-- At the mean's exit: its five arrays at what the pipeline leaves, every other buffer as entered. -/
def W2 (c : Dev nD) : Valuation τ sig (Elt F) :=
  Pipeline.withArrays spec0 c (W1d m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1d m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the slices and reshapes that cut the mean table into its user rows and item rows: the readout's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the readout's exit. -/
def W4 (hO : Ok m) (c : Dev nD) : Valuation τ sig (Elt F) :=
  Pipeline.withArrays spec1 c (W3 m ρ c) fun w => (dat1 (V3 m ρ) (adm1 m hO) c).arrAt w (cfg1 (adm1 m hO)).N
theorem W4_arr (hO : Ok m) (c : Dev nD) (w : Fin (cfg1 (adm1 m hO)).W) :
    W4 m ρ hO c (Proc.devRef .tc (Pipeline.arrRef spec1 w)) = (dat1 (V3 m ρ) (adm1 m hO) c).arrAt w (cfg1 (adm1 m hO)).N := by
  unfold W4; exact Pipeline.withArrays_arr spec1 (launch1 (F := F)).win.arr_inj c _ _ w
theorem W4_of_ne (hO : Ok m) (c : Dev nD) (b : Ref sig .tc) (hb : ∀ w, Pipeline.arrRef spec1 w ≠ b) :
    W4 m ρ hO c (Proc.devRef .tc b) = W3 m ρ c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m ρ hO c b
theorem hF1 (hO : Ok m) (c : Dev nD) (w : Fin (cfg1 (adm1 m hO)).W) :
    (dat1 (V3 m ρ) (adm1 m hO) c).arrAt w (cfg1 (adm1 m hO)).N = V4 m ρ hO c (Pipeline.arrRef spec1 w) :=
  (W4_arr m ρ hO c w).symm
theorem hrest1 (hO : Ok m) (c : Dev nD) : ∀ b, b ∉ Finset.univ.image (Pipeline.arrRef spec1) → V4 m ρ hO c b = V3 m ρ c b :=
  fun b hb => W4_of_ne m ρ hO c b fun w e => hb (Finset.mem_image.mpr ⟨w, Finset.mem_univ _, e⟩)

/-- After the closing reshape and the addition of the global mean (zero): the end. -/
abbrev W5 (hO : Ok m) : Dev nD → Valuation τ sig (Elt F) := fun c => StableHlo.after hostOps2 (W4 m ρ hO c)

/-! ## No host operation writes an argument -/

/-- Every reference some host operation writes: all of the program's value buffers, and none of its seven arguments. -/
abbrev hostW : List (Ref sig .tc) := [main_v0, main_v1, main_v2, main_v3, main_c, main_v4, main_v5, main_v6, main_v7, main_cst, main_v8, main_cst_0, main_v9, main_v10, main_v11, main_cst_1, main_v12, main_v13, main_cst_2, main_v14, main_v15, main_call0_v0, main_call0_cst, main_call0_v1, main_v16, main_cst_3, main_call1_v0, main_call1_v1, main_v17, main_c_4, main_v18, main_v19, main_c_5, main_v20, main_v21, main_v22, main_v23, main_v24, main_c_6, main_v25, main_v26, main_c_7, main_v27, main_v28, main_v29, main_v30, main_v31, main_v32, main_v33, main_v34, main_c_8, main_v35, main_v36, main_c_9, main_v37, main_v38, main_v39, main_v40, main_v41, main_v42, main_v43, main_cst_10, main_v44, main_v45, main_v46, main_v47, main_c_11, main_v48, main_v49, main_c_12, main_v50, main_v51, main_v52, main_v53, main_v54, main_v55, main_v56, main_cst_13, main_v57, main_v58, main_v59, main_v60, main_c_14, main_v61, main_v62, main_c_15, main_v63, main_v64, main_v65, main_v66, main_v67, main_v68, main_v69, main_cst_16, main_v70, main_v71, main_v72, main_v73, main_v74, main_v75, main_v76, main_v77, main_v78, main_v79, main_v80, main_v81, main_cst_17, main_v82, main_v83]

end Cert.KernelIdeal.Frm

end
-- ==== Proof.KI.Ok.lean ====
/- The readout's side condition from the ids' ranges: a user id below 100000 names a row of the 100000-row user tables
   (the mean table's user rows, one row of 64 lanes, and the user bias column), an item id below 50000 a row of the 50000-row
   item tables, so every block the two id tables index lies inside its array: on the indexed axis (id + 1) · 1 ≤ rows, and on
   the two trailing axes the block is the whole extent. Stated for any float instance. -/
import proofs.«409526_j29154238005727_3_alg».proof.Proof.KI.Fold

set_option maxRecDepth 16384

noncomputable section

namespace Cert.KernelIdeal.Frm

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem ok_of_ids (hu : ∀ x, (tbl m 0 x).toNat < 100000) (hv : ∀ x, (tbl m 1 x).toNat < 50000) : Ok m := by
  refine ⟨fun i => ?_, fun i => ?_, fun i => ?_, fun i => ?_⟩
  · obtain ⟨w, hw, e⟩ : ∃ w : BitVec 32, w.toNat < 100000 ∧ cc1_transform_0 k1_off1_inb numel1_S1 (tbl m) i = ![w.toNat, 0, 0] :=
      ⟨_, hu _, rfl⟩
    refine ⟨fun a => ?_, Or.inl rfl⟩
    rw [e]
    fin_cases a <;> simp [S1x1x64, S100000x1x64] <;> omega
  · obtain ⟨w, hw, e⟩ : ∃ w : BitVec 32, w.toNat < 50000 ∧ cc1_transform_1 k1_off1_inb numel1_S1 (tbl m) i = ![w.toNat, 0, 0] :=
      ⟨_, hv _, rfl⟩
    refine ⟨fun a => ?_, Or.inl rfl⟩
    rw [e]
    fin_cases a <;> simp [S1x1x64, S50000x1x64] <;> omega
  · obtain ⟨w, hw, e⟩ : ∃ w : BitVec 32, w.toNat < 100000 ∧ cc1_transform_2 k1_off1_inb numel1_S1 (tbl m) i = ![w.toNat, 0, 0] :=
      ⟨_, hu _, rfl⟩
    refine ⟨fun a => ?_, Or.inl rfl⟩
    rw [e]
    fin_cases a <;> simp [S1x1x1, S100000x1x1] <;> omega
  · obtain ⟨w, hw, e⟩ : ∃ w : BitVec 32, w.toNat < 50000 ∧ cc1_transform_3 k1_off1_inb numel1_S1 (tbl m) i = ![w.toNat, 0, 0] :=
      ⟨_, hv _, rfl⟩
    refine ⟨fun a => ?_, Or.inl rfl⟩
    rw [e]
    fin_cases a <;> simp [S1x1x1, S50000x1x1] <;> omega

end Cert.KernelIdeal.Frm

end
-- ==== Proof.KI.Run.lean ====
/- The program's run, from the launch to the return: nine segments — five stretches of host operations (degrees,
   normalisation, the three propagation layers), the mean's pallas_call, the slices and reshapes that cut the mean table into
   user rows and item rows, the readout's pallas_call, and the closing reshape and addition. Between two segments the thread
   holds every unscoped buffer at the boundary's contents (the fold of the previous module), the generator register at some
   state, and owes nothing. A stretch of host operations moves the contents along the fold; a pallas_call takes its windows'
   arrays out of the unscoped buffers at entry and puts them back, at what its write-backs leave, at exit; the readout also
   takes its two id tables out, whole, and gives them back unchanged. The result: every weakly fair execution terminates,
   nothing faults, and every unscoped buffer ends at the fold's last contents. No host operation writes an argument and no
   pallas_call has one as a window's array, so the fold at an argument is the launch memory. Stated for any float instance. -/
import proofs.«409526_j29154238005727_3_alg».proof.Proof.KI.Fold

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that none allocates -/

set_option maxHeartbeats 4000000 in
theorem hostOps0_writes : (hostOps0 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_writes : (hostOps0_1 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_writes : (hostOps0_2 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_writes : (hostOps0_3 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_writes : (hostOps0_4 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps1_writes : (hostOps1 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_fresh : (hostOps1 : List (HloOp τ sig (Elt F))).Forall fun op => op.fresh = ∅ := by
  simp only [List.Forall]; repeat' constructor
set_option maxHeartbeats 4000000 in
theorem hostOps2_writes : (hostOps2 : List (HloOp τ sig (Elt F))).Forall fun op => op.writes ⊆ (hostW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps2_fresh : (hostOps2 : List (HloOp τ sig (Elt F))).Forall fun op => op.fresh = ∅ := by
  simp only [List.Forall]; repeat' constructor

/-! ## A buffer no segment writes keeps its launch contents through the fold -/

theorem W1d_of (c : Dev nD) (r : Ref sig .tc) (h : r ∉ hostW) : W1d m ρ c (Proc.devRef .tc r) = W0 m ρ c (Proc.devRef .tc r) :=
  (StableHlo.after_of_writes_sub hostOps0_4 (W1c m ρ c) hostOps0_4_writes h).trans <|
  (StableHlo.after_of_writes_sub hostOps0_3 (W1b m ρ c) hostOps0_3_writes h).trans <|
  (StableHlo.after_of_writes_sub hostOps0_2 (W1a m ρ c) hostOps0_2_writes h).trans <|
  (StableHlo.after_of_writes_sub hostOps0_1 (W1 m ρ c) hostOps0_1_writes h).trans <|
  StableHlo.after_of_writes_sub hostOps0 (W0 m ρ c) hostOps0_writes h

theorem W3_of (c : Dev nD) (r : Ref sig .tc) (h : r ∉ hostW) (h0 : ∀ w, Pipeline.arrRef spec0 w ≠ r) :
    W3 m ρ c (Proc.devRef .tc r) = m ((c : Thread nD τ).loc r) :=
  (StableHlo.after_of_writes_sub hostOps1 (W2 m ρ c) hostOps1_writes h).trans <|
  (W2_of_ne m ρ c r h0).trans <| W1d_of m ρ c r h

theorem W5_of (hO : Ok m) (c : Dev nD) (r : Ref sig .tc) (h : r ∉ hostW) (h0 : ∀ w, Pipeline.arrRef spec0 w ≠ r)
    (h1 : ∀ w, Pipeline.arrRef spec1 w ≠ r) : W5 m ρ hO c (Proc.devRef .tc r) = m ((c : Thread nD τ).loc r) :=
  (StableHlo.after_of_writes_sub hostOps2 (W4 m ρ hO c) hostOps2_writes h).trans <|
  (W4_of_ne m ρ hO c r h1).trans <| W3_of m ρ c r h h0

/-- The two id tables reach the readout as launched. -/
theorem tbl_V3 (c : Dev nD) : (fun k => V3 m ρ c (pre1.ref k)) = tbl m := by
  obtain rfl : c = 0 := Subsingleton.elim _ _
  funext k
  match k with
  | ⟨0, _⟩ => exact W3_of m ρ 0 main_arg5 (by decide) (by decide)
  | ⟨1, _⟩ => exact W3_of m ρ 0 main_arg6 (by decide) (by decide)

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (V1 m ρ) c
  | ⟨1, _⟩ => fun c => dat1 (V3 m ρ) (adm1 m hO) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers at contents `W`. -/
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the fold's last contents. -/
abbrev Tₙ (hO : Ok m) (c : Dev nD) : sProp 𝕄 :=
  iprop(StableHlo.held (c : Thread nD τ) (Pipeline.ucRefs τ sig) (W5 m ρ hO c) ∗ ∃ r, prngReg c r)

/-! ## The two pallas_calls as segments -/

set_option backward.isDefEq.respectTransparency.types false in
/-- The mean: entered from every unscoped buffer at `W1d`, left at `W2`. -/
def reg0 (hO : Ok m) : Pipeline.RegionSeg (pcfgs (F := F)) (adm m hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1d m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The readout: entered from every unscoped buffer at `W3`, left at `W4`. Of the unscoped buffers that are no window's
    array the two id tables go to the pipeline whole, at the launched contents, ride in its invariant, and come back. -/
def reg1 (hO : Ok m) : Pipeline.RegionSeg (pcfgs (F := F)) (adm m hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm1 m hO) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hO c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm m hO) (pdats m ρ hO) (launch1 (F := F)).win (launch1 (F := F)).arr_whole c
      ((pdats m ρ hO 1 c).share_full fun _ => rfl) (V3 m ρ c) fun _ => rfl
    have hs : (Pipeline.unscopedRest (Ix := Unit) (Name := ℕ) (U := UR sig nD τ) (Lvl := ℕ) (Pipeline.pin (pcfgs (F := F)) (adm m hO) 1).spec c (V3 m ρ c) : sProp 𝕄)
        = iprop(Pipeline.prefHeld pre1 c (fun _ => fullShare) (tbl m) ∗ Pipeline.unscopedRestP pre1 spec1 c (V3 m ρ c)) :=
      (Pipeline.unscopedRest_split preFacts1 c (V3 m ρ c)).trans (by rw [tbl_V3 m ρ c])
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = ΦR (adm1 m hO) c from rfl]; unfold ΦR Pipeline.ΦA
    iintro ⟨Hp, Hpf, Hr⟩
    isplitl [Hr Hp]
    · isplitl [Hr]; · iexact Hr
      iexact Hp
    iexact Hpf
  hout c := by
    rw [Pipeline.ownSems0_none, show (pdats m ρ hO 1 c).Φ (Fin.last _) = ΦR (adm1 m hO) c from rfl]; unfold ΦR Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m ρ hO) ((pdats m ρ hO 1 c).share_full fun _ => rfl)
      (V3 m ρ c) (V4 m ρ hO c) ((pdats m ρ hO 1 c).arrAt · (cfg1 (adm1 m hO)).N) (hF1 m ρ hO c) (hrest1 m ρ hO c)
    have hs : (Pipeline.unscopedRest (Ix := Unit) (Name := ℕ) (U := UR sig nD τ) (Lvl := ℕ) (Pipeline.pin (pcfgs (F := F)) (adm m hO) 1).spec c (V3 m ρ c) : sProp 𝕄)
        = iprop(Pipeline.prefHeld pre1 c (fun _ => fullShare) (tbl m) ∗ Pipeline.unscopedRestP pre1 spec1 c (V3 m ρ c)) :=
      (Pipeline.unscopedRest_split preFacts1 c (V3 m ρ c)).trans (by rw [tbl_V3 m ρ c])
    rw [Pipeline.unscopedBufs_held, hs] at hjoin
    iintro ⟨Ha, HO, ⟨Hp, Hpf⟩, Hrest⟩
    imodintro
    isplitl [Ha Hrest Hpf]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

/-! ## The program as its segments, and the launch -/

abbrev segs (hO : Ok m) : List (Pipeline.Seg (pcfgs (F := F)) (adm m hO) (pdats m ρ hO) () defs₀ 𝒱₀ L lv) :=
  [ .host (hseg m hO hostOps0 hostOps0_sub hostOps0_fresh (W0 m ρ)),
    .host (hseg m hO hostOps0_1 hostOps0_1_sub hostOps0_1_fresh (W1 m ρ)),
    .host (hseg m hO hostOps0_2 hostOps0_2_sub hostOps0_2_fresh (W1a m ρ)),
    .host (hseg m hO hostOps0_3 hostOps0_3_sub hostOps0_3_fresh (W1b m ρ)),
    .host (hseg m hO hostOps0_4 hostOps0_4_sub hostOps0_4_fresh (W1c m ρ)),
    .region (reg0 m ρ hO),
    .host (hseg m hO hostOps1 hostOps1_sub hostOps1_fresh (W2 m ρ)),
    .region (reg1 m ρ hO),
    .host (hseg m hO hostOps2 hostOps2_sub hostOps2_fresh (W4 m ρ hO)) ]

set_option maxHeartbeats 4000000 in
/-- The program is the run of its segments. -/
theorem main_run (hO : Ok m) (c : Dev nD) : main (F := F) c = Pipeline.Seg.run (segs m ρ hO) := (main_chain c).trans (by chain_rfl)

set_option backward.isDefEq.respectTransparency.types false in
set_option maxHeartbeats 4000000 in
/-- From any memory with zero counters, whenever the launched id tables index blocks inside their arrays: every weakly
    fair execution of the program terminates, nothing faulting, and every unscoped buffer of every core ends at the fold's
    last contents. -/
theorem run_main (hO : Ok m) : θ_run defs (onTc (τ := τ) (main (F := F))) ⟨m, fun _ => 0, ρ⟩
    (fun r => ∀ c : Dev nD, ∀ b ∈ Pipeline.ucRefs τ sig, r.2.mem (((c : Thread nD τ)).1, b) = W5 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W5 m ρ hO c) ∗ R c)
          ⊢ iprop(Tₙ m ρ hO c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ hO c) s')
      isplitl [Hh] <;> iassumption)
    (hQ := fun s h c => h c)

/-- The frame: under the same hypothesis every execution terminates without a fault and the seven arguments end as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_of m ρ hO c main_arg0 (by decide) (by decide) (by decide)),
     (h c _ (mem_uc main_arg1 (by decide))).trans (W5_of m ρ hO c main_arg1 (by decide) (by decide) (by decide)),
     (h c _ (mem_uc main_arg2 (by decide))).trans (W5_of m ρ hO c main_arg2 (by decide) (by decide) (by decide)),
     (h c _ (mem_uc main_arg3 (by decide))).trans (W5_of m ρ hO c main_arg3 (by decide) (by decide) (by decide)),
     (h c _ (mem_uc main_arg4 (by decide))).trans (W5_of m ρ hO c main_arg4 (by decide) (by decide) (by decide)),
     (h c _ (mem_uc main_arg5 (by decide))).trans (W5_of m ρ hO c main_arg5 (by decide) (by decide) (by decide)),
     (h c _ (mem_uc main_arg6 (by decide))).trans (W5_of m ρ hO c main_arg6 (by decide) (by decide) (by decide))⟩)
    (run_main m ρ hO)

end Cert.KernelIdeal.Frm

end
-- ==== Proof.Spec.lean ====
/- What the program computes, as functions on the extended reals over literal shapes, with no program in sight.
   Four layer tables L0 … L3 of 150000 rows and 64 columns are summed entry by entry and scaled to their mean; the
   kernel multiplies the sum by one quarter, the reference divides it by four, and on every extended real
   (the infinities included) those agree, because one quarter is the inverse of four. A query (u, v) then reads row u
   of the mean table and row 100000 + v, takes the sum over the 64 columns of the products, and adds entry u of the
   user bias column and entry v of the item bias column. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The node table's shape, the two bias columns', and the result's. -/
abbrev SN : Shape := ⟨2, ![150000, 64]⟩
abbrev SU : Shape := ⟨2, ![100000, 1]⟩
abbrev SI : Shape := ⟨2, ![50000, 1]⟩
abbrev SB : Shape := ⟨1, ![16384]⟩

/-- The entrywise sum of the four layers, grouped from the left. -/
def layerSum (L0 L1 L2 L3 : SN.Idx → EReal) : SN.Idx → EReal := fun j => ((L0 j + L1 j) + L2 j) + L3 j

/-- The mean as the kernel spells it: the sum times the float word of one quarter. -/
def meanMul (L0 L1 L2 L3 : SN.Idx → EReal) : SN.Idx → EReal :=
  fun j => layerSum L0 L1 L2 L3 j * Ideal.ofBits .f32 0x3E800000#32

/-- The mean as the reference spells it: the sum divided by the float word of four. -/
def meanDiv (L0 L1 L2 L3 : SN.Idx → EReal) : SN.Idx → EReal :=
  fun j => Ideal.div (layerSum L0 L1 L2 L3 j) (Ideal.ofBits .f32 0x40800000#32)

/-- The readout of a mean table `fin` at the queries `(u i, v i)`: the row product summed over the columns, plus the two biases. -/
def readout (fin : SN.Idx → EReal) (ub : SU.Idx → EReal) (ib : SI.Idx → EReal)
    (u : Fin 16384 → Fin 100000) (v : Fin 16384 → Fin 50000) : SB.Idx → EReal :=
  fun i =>
    ((∑ k : Fin 64, fin (ix2 (⟨(u (i 0)).val, by have := (u (i 0)).isLt; omega⟩ : Fin 150000) k)
        * fin (ix2 (⟨100000 + (v (i 0)).val, by have := (v (i 0)).isLt; omega⟩ : Fin 150000) k))
      + ub (ix2 (u (i 0)) (0 : Fin 1)))
    + ib (ix2 (v (i 0)) (0 : Fin 1))

/-- The float word 0x3E800000 is one quarter, exactly (a power of two). -/
theorem ofBits_quarter : Ideal.ofBits .f32 0x3E800000#32 = ((1 / 4 : ℝ) : EReal) := by
  simp [Ideal.ofBits, Ideal.ieee, -EReal.coe_mul]; norm_num

/-- The float word 0x40800000 is four, exactly. -/
theorem ofBits_four : Ideal.ofBits .f32 0x40800000#32 = ((4 : ℝ) : EReal) := by
  simp [Ideal.ofBits, Ideal.ieee, -EReal.coe_mul]; norm_num

/-- Multiplying by one quarter and dividing by four are one function of the sum, on every extended real: division by
    a nonzero real is multiplication by its inverse, at the infinities too. No entry needs to be finite. -/
theorem meanMul_eq_meanDiv (L0 L1 L2 L3 : SN.Idx → EReal) : meanMul L0 L1 L2 L3 = meanDiv L0 L1 L2 L3 := by
  funext j
  unfold meanMul meanDiv
  rw [ofBits_quarter, ofBits_four, Ideal.div_coe (by norm_num : (4 : ℝ) ≠ 0)]

end Cert.Spec

end
-- ==== Proof.KI.MeanValue.lean ====
/- The mean's pallas_call, from its blocks to the array. Each of the 30 grid points stores, entry by entry, the sum of
   its four input blocks times one quarter; window w's block at point t is rows 5000·t … 5000·t + 4999 of its array, all
   64 columns; the 30 output blocks tile the 150000 × 64 array. So after the pallas_call the output array is, entry by
   entry, the specification's mean of the four input arrays as the region found them. -/
import proofs.«409526_j29154238005727_3_alg».proof.Proof.KI.Mean
import proofs.«409526_j29154238005727_3_alg».proof.Proof.Spec
import Idealize.ShloMosaic.Lib.Pipeline.Value
import Idealize.ShloMosaic.Lib.ValueIdx

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

/-- The whole-block rectangle starts at the origin. -/
theorem meanOrigin : (![0, 0] : Fin 2 → Nat) = fun _ => 0 := funext fun a => by fin_cases a <;> rfl

/-- The body's stored value at an entry: the four blocks' entries summed from the left, times one quarter. -/
theorem meanPay_apply (x0 x1 x2 x3 : Vec Ideal S5000x64 .f32) (y : S5000x64.Idx) :
    k0_pay1 (F := Ideal) x0 x1 x2 x3 y = (((x0 y + x1 y) + x2 y) + x3 y) * Ideal.ofBits .f32 0x3E800000#32 := by
  unfold k0_pay1
  simp only [shapeCast_self]
  rfl

/-- Every window's block index at grid point t is (t, 0): decided over the 30 points. -/
theorem blockIdx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

variable (V : (c : Dev nD) → (b : Ref sig .tc) → Buf (Elt Ideal) ((c : Thread nD τ).loc b))

/-- What point t writes back is block t of the specification's mean of the four arrays. -/
theorem meanFlushed (c : Dev nD) (t : Fin cfg0.N) :
    (dat0 (F := Ideal) V c).flushed 4 t
      = ((cfg0.win 4).blk t).view.read (Elt Ideal)
          (Cert.Spec.meanMul (V c main_v33) (V c main_v46) (V c main_v59) (V c main_v72)) := by
  show (cfg0.win 4).cut (grid0.coords t) ((dat0 V c).after 4 t) = _
  rw [after0_4]
  unfold meanOut
  rw [View.canon_unit_zero meanOrigin]
  simp only [View.ld_unit_zero (S := S5000x64) meanOrigin]
  funext j
  show k0_pay1 (F := Ideal) (iblk0 V c 0 t) (iblk0 V c 1 t) (iblk0 V c 2 t) (iblk0 V c 3 t) j
      = Cert.Spec.meanMul (V c main_v33) (V c main_v46) (V c main_v59) (V c main_v72) (((cfg0.win 4).blk t).view.emb j)
  rw [meanPay_apply]
  obtain ⟨⟨a0, b0⟩, ⟨a1, b1⟩, ⟨a2, b2⟩, ⟨a3, b3⟩, ⟨a4, b4⟩⟩ := blockIdx0 t
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; rw [a0, a4]
    | ⟨1, _⟩ => show win0_0.index t (1 : Fin 2) * 64 + 1 * (j 1).val = win0_4.index t (1 : Fin 2) * 64 + 1 * (j 1).val; rw [b0, b4]
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; rw [a1, a4]
    | ⟨1, _⟩ => show win0_1.index t (1 : Fin 2) * 64 + 1 * (j 1).val = win0_4.index t (1 : Fin 2) * 64 + 1 * (j 1).val; rw [b1, b4]
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; rw [a2, a4]
    | ⟨1, _⟩ => show win0_2.index t (1 : Fin 2) * 64 + 1 * (j 1).val = win0_4.index t (1 : Fin 2) * 64 + 1 * (j 1).val; rw [b2, b4]
  have h3 : ((cfg0.win 3).blk t).view.emb j = ((cfg0.win 4).blk t).view.emb j := by
    funext a; apply Fin.ext
    match a with
    | ⟨0, _⟩ => show win0_3.index t (0 : Fin 2) * 5000 + 1 * (j 0).val = win0_4.index t (0 : Fin 2) * 5000 + 1 * (j 0).val; rw [a3, a4]
    | ⟨1, _⟩ => show win0_3.index t (1 : Fin 2) * 64 + 1 * (j 1).val = win0_4.index t (1 : Fin 2) * 64 + 1 * (j 1).val; rw [b3, b4]
  have e0 : iblk0 V c 0 t j = V c main_v33 (((cfg0.win 4).blk t).view.emb j) := congrArg (V c main_v33) h0
  have e1 : iblk0 V c 1 t j = V c main_v46 (((cfg0.win 4).blk t).view.emb j) := congrArg (V c main_v46) h1
  have e2 : iblk0 V c 2 t j = V c main_v59 (((cfg0.win 4).blk t).view.emb j) := congrArg (V c main_v59) h2
  have e3 : iblk0 V c 3 t j = V c main_v72 (((cfg0.win 4).blk t).view.emb j) := congrArg (V c main_v72) h3
  rw [e0, e1, e2, e3]
  rfl

/-- An entry of the output array is in point t's block iff each coordinate is in the block's range on its axis. -/
theorem mem_meanBlk (t : Fin cfg0.N) (i : S150000x64.Idx) :
    i ∈ ((cfg0.win 4).blk t).view.set
      ↔ ∀ a : Fin 2, win0_4.index t a * S5000x64.size a ≤ (i a).val
          ∧ (i a).val < win0_4.index t a * S5000x64.size a + S5000x64.size a := by
  show i ∈ ((View.whole main_v73).slice (win0_4.rect t)).set ↔ _
  rw [View.set_slice_whole, Rect.mem_set_unit]
  exact Iff.rfl

/-- The 30 output blocks tile the array: row r, at any column, lies in the block of point r / 5000, since
    5000 · (r / 5000) ≤ r < 5000 · (r / 5000) + 5000 and r < 150000 puts r / 5000 below 30. -/
theorem meanTiles (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have hq : (i 0).val / 5000 < 30 := by omega
  refine ⟨⟨(i 0).val / 5000, hq⟩, flush0_4 _, ?_⟩
  rw [mem_meanBlk]
  obtain ⟨-, -, -, -, q0, q1⟩ := blockIdx0 ⟨(i 0).val / 5000, hq⟩
  intro a
  match a with
  | ⟨0, _⟩ =>
    show win0_4.index _ (0 : Fin 2) * 5000 ≤ (i 0).val ∧ (i 0).val < win0_4.index _ (0 : Fin 2) * 5000 + 5000
    rw [q0]
    show (i 0).val / 5000 * 5000 ≤ (i 0).val ∧ (i 0).val < (i 0).val / 5000 * 5000 + 5000
    omega
  | ⟨1, _⟩ =>
    show win0_4.index _ (1 : Fin 2) * 64 ≤ (i 1).val ∧ (i 1).val < win0_4.index _ (1 : Fin 2) * 64 + 64
    rw [q1]
    omega

/-- After the pallas_call the output array is the specification's mean of the four input arrays as the region found
    them: every point writes back its block of that one function, and the blocks cover the array. -/
theorem mean_arr (c : Dev nD) :
    (dat0 (F := Ideal) V c).arrAt 4 cfg0.N
      = Cert.Spec.meanMul (V c main_v33) (V c main_v46) (V c main_v59) (V c main_v72) :=
  (dat0 (F := Ideal) V c).arrAt_eq_of_cover 4
    (Cert.Spec.meanMul (V c main_v33) (V c main_v46) (V c main_v59) (V c main_v72))
    (fun t _ => meanFlushed V c t) meanTiles

end Cert.KernelIdeal.Frm

end
-- ==== Proof.KI.ReadoutValue.lean ====
/- The value of region 1, the batch readout, at the ideal float values. For any contents V of the TensorCore's buffers
   when the region is entered and any admissible contents of the two prefetched tables whose words, read as row numbers,
   are u (the user ids) and v (the item ids): the body's one store at a point is the sum over the 64 lanes of the
   product of the two staged rows plus the two staged bias entries; the block each window stages at point t is the row
   (or the entry) its table names there; so what point t writes back is entry t of the array of scores, and the 16384
   one-entry blocks tile the result array, which therefore ends holding the score of query j at entry j. The tables'
   contents stay a variable throughout: every fact about an index map is proved for arbitrary contents. -/
import proofs.«409526_j29154238005727_3_alg».proof.Proof.KI.Readout
import Idealize.ShloMosaic.Lib.Pipeline.Value
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The body's store at its one index -/

/-- The zero offsets of a whole-block rectangle, however spelt. -/
theorem zeros3 : (![0, 0, 0] : Fin 3 → Nat) = fun _ => 0 := funext fun a => by
  match a with | ⟨0, _⟩ => rfl | ⟨1, _⟩ => rfl | ⟨2, _⟩ => rfl

set_option maxHeartbeats 50000 in
/-- The body's one store through the whole one-entry rectangle leaves its payload, of the four staged blocks loaded whole. -/
theorem readOut_eq (x0 x1 : Vec Ideal S1x1x64 .f32) (x2 x3 : Vec Ideal S1x1x1 .f32) :
    readOut (F := Ideal) x0 x1 x2 x3 = k1_pay1 (F := Ideal) x0 x1 x2 x3 := by
  unfold readOut
  rw [View.canon_unit_zero zeros3]
  simp only [View.ld_unit_zero (S := S1x1x64) zeros3, View.ld_unit_zero (S := S1x1x1) zeros3]

/-- The one index of a one-entry block. -/
theorem idx_one (y : S1x1x1.Idx) : y = ix3 (0 : Fin 1) (0 : Fin 1) (0 : Fin 1) := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

set_option maxHeartbeats 50000 in
/-- The sum over the 64 lanes of a staged row, read as a plain sum. -/
theorem laneSum (z : FVec Ideal S1x1x64 .f32) (h : S1x1x64.Reduces [2] S1x1) (hφ : FKind.Formats .f32)
    (hacc : (0x00000000#32 : BitVec 32) = FKind.add.neutral .f32 hφ) (p q : Fin 1) :
    multiReduction (F := Ideal) .add [2] S1x1 z 0x00000000#32 h hφ hacc (ix2 p q)
      = ∑ k : Fin 64, z (ix3 (0 : Fin 1) (0 : Fin 1) k) := by
  refine (Ideal.multiReduction_add_single z 0x00000000#32 h hφ hacc (ix2 p q)).trans ?_
  refine Finset.sum_congr rfl fun k _ => congrArg z ?_
  funext a; apply Fin.ext
  match a with
  | ⟨0, _⟩ => have hp : p.val < 1 := p.isLt; show p.val = 0; omega
  | ⟨1, _⟩ => have hq : q.val < 1 := q.isLt; show q.val = 0; omega
  | ⟨2, _⟩ => rfl

set_option maxHeartbeats 50000 in
/-- A one-entry vector of rank 2 viewed with a third unit axis keeps its entry. -/
theorem cast_one (z : FVec Ideal S1x1 .f32) (h : S1x1.ShapeCasts S1x1x1) :
    shapeCast S1x1x1 z h (ix3 (0 : Fin 1) (0 : Fin 1) (0 : Fin 1)) = z (ix2 (0 : Fin 1) (0 : Fin 1)) := by
  refine shapeCast_apply z h _ _ ?_
  rw [Shape.rowMajor_val_two, Shape.rowMajor_val_three]
  rfl

set_option maxHeartbeats 50000 in
/-- The payload at its one index: the lane sum of the products of the two rows, plus the two bias entries. -/
theorem pay_apply (x0 x1 : Vec Ideal S1x1x64 .f32) (x2 x3 : Vec Ideal S1x1x1 .f32) (y : S1x1x1.Idx) :
    k1_pay1 (F := Ideal) x0 x1 x2 x3 y
      = ((∑ k : Fin 64, x0 (ix3 (0 : Fin 1) (0 : Fin 1) k) * x1 (ix3 (0 : Fin 1) (0 : Fin 1) k))
          + x2 (ix3 (0 : Fin 1) (0 : Fin 1) (0 : Fin 1))) + x3 (ix3 (0 : Fin 1) (0 : Fin 1) (0 : Fin 1)) := by
  rw [idx_one y]
  unfold k1_pay1
  dsimp only
  rw [addf_apply, addf_apply]
  simp only [shapeCast_self]
  rw [cast_one]
  refine congrArg (fun s => s + x2 _ + x3 _) ?_
  exact laneSum (mulf (F := Ideal) x0 x1) _ _ _ 0 0

set_option maxHeartbeats 50000 in
/-- So the output block the body leaves, at its one index, is that sum. -/
theorem readOut_apply (x0 x1 : Vec Ideal S1x1x64 .f32) (x2 x3 : Vec Ideal S1x1x1 .f32) (y : S1x1x1.Idx) :
    readOut (F := Ideal) x0 x1 x2 x3 y
      = ((∑ k : Fin 64, x0 (ix3 (0 : Fin 1) (0 : Fin 1) k) * x1 (ix3 (0 : Fin 1) (0 : Fin 1) k))
          + x2 (ix3 (0 : Fin 1) (0 : Fin 1) (0 : Fin 1))) + x3 (ix3 (0 : Fin 1) (0 : Fin 1) (0 : Fin 1)) := by
  rw [readOut_eq, pay_apply]

/-! ## The grid and the index maps -/

/-- The readout's grid has one axis, so a point's coordinate is the point's own number. -/
theorem coord1 (t : Fin grid1.N) : (grid1.coords t 0).val = t.val := by
  have h : t.val < 16384 := t.isLt
  have hs : grid1.stride 0 = 1 := by decide
  show t.val / grid1.stride 0 % 16384 = t.val
  rw [hs]; omega

set_option maxHeartbeats 50000 in
/-- The one-word rectangle of a 16384-word table at the offset a grid coordinate spells is that coordinate's word. -/
theorem word_idx (n : Fin 16384) (inb : ∀ a, (![(Scalar.indexCast (BitVec.ofNat 32 n.val)).toNat] : Fin 1 → Nat) a + S1.size a ≤ S16384.size a)
    (y : (Rect.unit (s := S16384) ![(Scalar.indexCast (BitVec.ofNat 32 n.val)).toNat] S1.size inb).shape.Idx) :
    (Rect.unit (s := S16384) ![(Scalar.indexCast (BitVec.ofNat 32 n.val)).toNat] S1.size inb).emb y = (ValueIdx.ix1 n : S16384.Idx) := by
  funext b; apply Fin.ext
  match b with
  | ⟨0, _⟩ =>
    have hy : (y 0).val < 1 := (y 0).isLt
    show (BitVec.ofNat 32 n.val).toNat + 1 * (y 0).val = n.val
    have hi : n.val < 16384 := n.isLt
    rw [BitVec.toNat_ofNat, Nat.mod_eq_of_lt (by omega)]; omega

set_option maxHeartbeats 50000 in
/-- The leading block coordinate of the user rows' window is the user table's word at the point; -/
theorem tr0_eq (h1 : ∀ i : grid1.Coords, ∀ a, (k1_off1 i) a + S1.size a ≤ S16384.size a) (h2 : S1.numel = 1)
    (pf : pre1.Contents (Elt Ideal)) (i : grid1.Coords) :
    cc1_transform_0 (F := Ideal) h1 h2 pf i (0 : Fin 3) = (pf 0 (ValueIdx.ix1 (⟨(i 0).val, (i 0).isLt⟩ : Fin 16384))).toNat := by
  unfold cc1_transform_0
  dsimp only
  show (pf 0 _).toNat = (pf 0 _).toNat
  exact congrArg (fun x => (pf 0 x).toNat) (word_idx ⟨(i 0).val, (i 0).isLt⟩ _ _)

set_option maxHeartbeats 50000 in
/-- of the item rows' window the item table's word; -/
theorem tr1_eq (h1 : ∀ i : grid1.Coords, ∀ a, (k1_off1 i) a + S1.size a ≤ S16384.size a) (h2 : S1.numel = 1)
    (pf : pre1.Contents (Elt Ideal)) (i : grid1.Coords) :
    cc1_transform_1 (F := Ideal) h1 h2 pf i (0 : Fin 3) = (pf 1 (ValueIdx.ix1 (⟨(i 0).val, (i 0).isLt⟩ : Fin 16384))).toNat := by
  unfold cc1_transform_1
  dsimp only
  show (pf 1 _).toNat = (pf 1 _).toNat
  exact congrArg (fun x => (pf 1 x).toNat) (word_idx ⟨(i 0).val, (i 0).isLt⟩ _ _)

set_option maxHeartbeats 50000 in
/-- of the user bias window the user table's word; -/
theorem tr2_eq (h1 : ∀ i : grid1.Coords, ∀ a, (k1_off1 i) a + S1.size a ≤ S16384.size a) (h2 : S1.numel = 1)
    (pf : pre1.Contents (Elt Ideal)) (i : grid1.Coords) :
    cc1_transform_2 (F := Ideal) h1 h2 pf i (0 : Fin 3) = (pf 0 (ValueIdx.ix1 (⟨(i 0).val, (i 0).isLt⟩ : Fin 16384))).toNat := by
  unfold cc1_transform_2
  dsimp only
  show (pf 0 _).toNat = (pf 0 _).toNat
  exact congrArg (fun x => (pf 0 x).toNat) (word_idx ⟨(i 0).val, (i 0).isLt⟩ _ _)

set_option maxHeartbeats 50000 in
/-- of the item bias window the item table's word. -/
theorem tr3_eq (h1 : ∀ i : grid1.Coords, ∀ a, (k1_off1 i) a + S1.size a ≤ S16384.size a) (h2 : S1.numel = 1)
    (pf : pre1.Contents (Elt Ideal)) (i : grid1.Coords) :
    cc1_transform_3 (F := Ideal) h1 h2 pf i (0 : Fin 3) = (pf 1 (ValueIdx.ix1 (⟨(i 0).val, (i 0).isLt⟩ : Fin 16384))).toNat := by
  unfold cc1_transform_3
  dsimp only
  show (pf 1 _).toNat = (pf 1 _).toNat
  exact congrArg (fun x => (pf 1 x).toNat) (word_idx ⟨(i 0).val, (i 0).isLt⟩ _ _)

variable (V : (c : Dev nD) → (b : Ref sig .tc) → Buf (Elt Ideal) ((c : Thread nD τ).loc b))
variable (a : (pcfg1 (F := Ideal)).Adm) (c : Dev nD)
variable (u : Fin 16384 → Fin 100000) (v : Fin 16384 → Fin 50000)

/-- A point of the readout's grid as a query number. -/
abbrev qn (t : Fin (cfg1 a).N) : Fin 16384 := ⟨t.val, t.isLt⟩

set_option maxHeartbeats 50000 in
/-- Window 0's block at point t is on the row the user table names there; -/
theorem index0_val (hu : ∀ t : Fin 16384, (a.1 0 (ValueIdx.ix1 t)).toNat = (u t).val) (t : Fin (cfg1 a).N) :
    ((cfg1 a).win 0).index t (0 : Fin 3) = (u (qn a t)).val := by
  show cc1_transform_0 (F := Ideal) k1_off1_inb numel1_S1 a.1 (grid1.coords t) (0 : Fin 3) = _
  rw [tr0_eq]
  exact (congrArg (fun s : Fin 16384 => (a.1 0 (ValueIdx.ix1 s)).toNat) (Fin.ext (coord1 t))).trans (hu _)

set_option maxHeartbeats 50000 in
/-- window 1's on the row the item table names; -/
theorem index1_val (hv : ∀ t : Fin 16384, (a.1 1 (ValueIdx.ix1 t)).toNat = (v t).val) (t : Fin (cfg1 a).N) :
    ((cfg1 a).win 1).index t (0 : Fin 3) = (v (qn a t)).val := by
  show cc1_transform_1 (F := Ideal) k1_off1_inb numel1_S1 a.1 (grid1.coords t) (0 : Fin 3) = _
  rw [tr1_eq]
  exact (congrArg (fun s : Fin 16384 => (a.1 1 (ValueIdx.ix1 s)).toNat) (Fin.ext (coord1 t))).trans (hv _)

set_option maxHeartbeats 50000 in
/-- window 2's on the user's entry of the user bias column; -/
theorem index2_val (hu : ∀ t : Fin 16384, (a.1 0 (ValueIdx.ix1 t)).toNat = (u t).val) (t : Fin (cfg1 a).N) :
    ((cfg1 a).win 2).index t (0 : Fin 3) = (u (qn a t)).val := by
  show cc1_transform_2 (F := Ideal) k1_off1_inb numel1_S1 a.1 (grid1.coords t) (0 : Fin 3) = _
  rw [tr2_eq]
  exact (congrArg (fun s : Fin 16384 => (a.1 0 (ValueIdx.ix1 s)).toNat) (Fin.ext (coord1 t))).trans (hu _)

set_option maxHeartbeats 50000 in
/-- window 3's on the item's entry of the item bias column; -/
theorem index3_val (hv : ∀ t : Fin 16384, (a.1 1 (ValueIdx.ix1 t)).toNat = (v t).val) (t : Fin (cfg1 a).N) :
    ((cfg1 a).win 3).index t (0 : Fin 3) = (v (qn a t)).val := by
  show cc1_transform_3 (F := Ideal) k1_off1_inb numel1_S1 a.1 (grid1.coords t) (0 : Fin 3) = _
  rw [tr3_eq]
  exact (congrArg (fun s : Fin 16384 => (a.1 1 (ValueIdx.ix1 s)).toNat) (Fin.ext (coord1 t))).trans (hv _)

set_option maxHeartbeats 50000 in
/-- and the output window's on entry t. -/
theorem index4_val (t : Fin (cfg1 a).N) : ((cfg1 a).win 4).index t (0 : Fin 3) = t.val := by
  show (BitVec.ofNat 32 (grid1.coords t 0).val).toNat = t.val
  have h : t.val < 16384 := t.isLt
  rw [BitVec.toNat_ofNat, coord1 t, Nat.mod_eq_of_lt (by omega)]

set_option maxHeartbeats 50000 in
/-- The other two block coordinates of every window are zero. -/
theorem index_rest (t : Fin (cfg1 a).N) :
    ((cfg1 a).win 0).index t (1 : Fin 3) = 0 ∧ ((cfg1 a).win 0).index t (2 : Fin 3) = 0
    ∧ ((cfg1 a).win 1).index t (1 : Fin 3) = 0 ∧ ((cfg1 a).win 1).index t (2 : Fin 3) = 0
    ∧ ((cfg1 a).win 2).index t (1 : Fin 3) = 0 ∧ ((cfg1 a).win 2).index t (2 : Fin 3) = 0
    ∧ ((cfg1 a).win 3).index t (1 : Fin 3) = 0 ∧ ((cfg1 a).win 3).index t (2 : Fin 3) = 0
    ∧ ((cfg1 a).win 4).index t (1 : Fin 3) = 0 ∧ ((cfg1 a).win 4).index t (2 : Fin 3) = 0 :=
  ⟨rfl, rfl, rfl, rfl, rfl, rfl, rfl, rfl, rfl, rfl⟩

/-! ## The staged blocks, read at an entry -/

set_option maxHeartbeats 100000 in
/-- Lane k of the user row staged at point t is lane k of row u t of the user table. -/
theorem blk0_apply (hu : ∀ t : Fin 16384, (a.1 0 (ValueIdx.ix1 t)).toNat = (u t).val) (t : Fin (cfg1 a).N) (k : Fin 64) :
    (iblk1 (F := Ideal) V a c 0 t : Vec Ideal S1x1x64 .f32) (ix3 (0 : Fin 1) (0 : Fin 1) k)
      = V c main_v76 (ix3 (u (qn a t)) (0 : Fin 1) k) := by
  show V c main_v76 ((((cfg1 a).win 0).blk t).view.emb (ix3 (0 : Fin 1) (0 : Fin 1) k)) = _
  refine congrArg (V c main_v76) ?_
  funext b; apply Fin.ext
  have e0 := index0_val a u hu t
  obtain ⟨e1, e2, -⟩ := index_rest a t
  match b with
  | ⟨0, _⟩ => show ((cfg1 a).win 0).index t (0 : Fin 3) * 1 + 1 * 0 = (u (qn a t)).val; omega
  | ⟨1, _⟩ => show ((cfg1 a).win 0).index t (1 : Fin 3) * 1 + 1 * 0 = 0; omega
  | ⟨2, _⟩ => show ((cfg1 a).win 0).index t (2 : Fin 3) * 64 + 1 * k.val = k.val; omega

set_option maxHeartbeats 100000 in
/-- Lane k of the item row staged at point t is lane k of row v t of the item table. -/
theorem blk1_apply (hv : ∀ t : Fin 16384, (a.1 1 (ValueIdx.ix1 t)).toNat = (v t).val) (t : Fin (cfg1 a).N) (k : Fin 64) :
    (iblk1 (F := Ideal) V a c 1 t : Vec Ideal S1x1x64 .f32) (ix3 (0 : Fin 1) (0 : Fin 1) k)
      = V c main_v77 (ix3 (v (qn a t)) (0 : Fin 1) k) := by
  show V c main_v77 ((((cfg1 a).win 1).blk t).view.emb (ix3 (0 : Fin 1) (0 : Fin 1) k)) = _
  refine congrArg (V c main_v77) ?_
  funext b; apply Fin.ext
  have e0 := index1_val a v hv t
  obtain ⟨-, -, e1, e2, -⟩ := index_rest a t
  match b with
  | ⟨0, _⟩ => show ((cfg1 a).win 1).index t (0 : Fin 3) * 1 + 1 * 0 = (v (qn a t)).val; omega
  | ⟨1, _⟩ => show ((cfg1 a).win 1).index t (1 : Fin 3) * 1 + 1 * 0 = 0; omega
  | ⟨2, _⟩ => show ((cfg1 a).win 1).index t (2 : Fin 3) * 64 + 1 * k.val = k.val; omega

set_option maxHeartbeats 100000 in
/-- The user bias entry staged at point t is entry u t of the user bias column. -/
theorem blk2_apply (hu : ∀ t : Fin 16384, (a.1 0 (ValueIdx.ix1 t)).toNat = (u t).val) (t : Fin (cfg1 a).N) :
    (iblk1 (F := Ideal) V a c 2 t : Vec Ideal S1x1x1 .f32) (ix3 (0 : Fin 1) (0 : Fin 1) (0 : Fin 1))
      = V c main_v78 (ix3 (u (qn a t)) (0 : Fin 1) (0 : Fin 1)) := by
  show V c main_v78 ((((cfg1 a).win 2).blk t).view.emb (ix3 (0 : Fin 1) (0 : Fin 1) (0 : Fin 1))) = _
  refine congrArg (V c main_v78) ?_
  funext b; apply Fin.ext
  have e0 := index2_val a u hu t
  obtain ⟨-, -, -, -, e1, e2, -⟩ := index_rest a t
  match b with
  | ⟨0, _⟩ => show ((cfg1 a).win 2).index t (0 : Fin 3) * 1 + 1 * 0 = (u (qn a t)).val; omega
  | ⟨1, _⟩ => show ((cfg1 a).win 2).index t (1 : Fin 3) * 1 + 1 * 0 = 0; omega
  | ⟨2, _⟩ => show ((cfg1 a).win 2).index t (2 : Fin 3) * 1 + 1 * 0 = 0; omega

set_option maxHeartbeats 100000 in
/-- The item bias entry staged at point t is entry v t of the item bias column. -/
theorem blk3_apply (hv : ∀ t : Fin 16384, (a.1 1 (ValueIdx.ix1 t)).toNat = (v t).val) (t : Fin (cfg1 a).N) :
    (iblk1 (F := Ideal) V a c 3 t : Vec Ideal S1x1x1 .f32) (ix3 (0 : Fin 1) (0 : Fin 1) (0 : Fin 1))
      = V c main_v79 (ix3 (v (qn a t)) (0 : Fin 1) (0 : Fin 1)) := by
  show V c main_v79 ((((cfg1 a).win 3).blk t).view.emb (ix3 (0 : Fin 1) (0 : Fin 1) (0 : Fin 1))) = _
  refine congrArg (V c main_v79) ?_
  funext b; apply Fin.ext
  have e0 := index3_val a v hv t
  obtain ⟨-, -, -, -, -, -, e1, e2, -⟩ := index_rest a t
  match b with
  | ⟨0, _⟩ => show ((cfg1 a).win 3).index t (0 : Fin 3) * 1 + 1 * 0 = (v (qn a t)).val; omega
  | ⟨1, _⟩ => show ((cfg1 a).win 3).index t (1 : Fin 3) * 1 + 1 * 0 = 0; omega
  | ⟨2, _⟩ => show ((cfg1 a).win 3).index t (2 : Fin 3) * 1 + 1 * 0 = 0; omega

/-! ## From the blocks to the array -/

/-- The score of a query from the four arrays the readout reads: row p of the user rows times row q of the item rows,
    summed over the 64 lanes, plus entry p of the user bias column, plus entry q of the item bias column. -/
def score (A : S100000x1x64.Idx → EReal) (B : S50000x1x64.Idx → EReal) (ub : S100000x1x1.Idx → EReal)
    (ib : S50000x1x1.Idx → EReal) (p : Fin 100000) (q : Fin 50000) : EReal :=
  ((∑ k : Fin 64, A (ix3 p (0 : Fin 1) k) * B (ix3 q (0 : Fin 1) k)) + ub (ix3 p (0 : Fin 1) (0 : Fin 1)))
    + ib (ix3 q (0 : Fin 1) (0 : Fin 1))

/-- The result array the readout should leave: entry j is the score of the rows the two tables name at j. -/
def scores : S16384x1x1.Idx → EReal :=
  fun j => score (V c main_v76) (V c main_v77) (V c main_v78) (V c main_v79) (u (j 0)) (v (j 0))

set_option maxHeartbeats 200000 in
/-- Entry y of point t's output block sits at entry t of the array. -/
theorem emb4 (t : Fin (cfg1 a).N) (y : S1x1x1.Idx) :
    @Eq S16384x1x1.Idx ((((cfg1 a).win 4).blk t).view.emb y) (ix3 (qn a t) (0 : Fin 1) (0 : Fin 1)) := by
  funext b; apply Fin.ext
  have e0 := index4_val a t
  obtain ⟨-, -, -, -, -, -, -, -, e1, e2⟩ := index_rest a t
  have h0 : (y 0).val < 1 := (y 0).isLt
  have h1 : (y 1).val < 1 := (y 1).isLt
  have h2 : (y 2).val < 1 := (y 2).isLt
  match b with
  | ⟨0, _⟩ => show ((cfg1 a).win 4).index t (0 : Fin 3) * 1 + 1 * (y 0).val = t.val; omega
  | ⟨1, _⟩ => show ((cfg1 a).win 4).index t (1 : Fin 3) * 1 + 1 * (y 1).val = 0; omega
  | ⟨2, _⟩ => show ((cfg1 a).win 4).index t (2 : Fin 3) * 1 + 1 * (y 2).val = 0; omega

set_option maxHeartbeats 200000 in
/-- What point t writes back is block t of the array of scores. -/
theorem flushed4_eq (hu : ∀ t : Fin 16384, (a.1 0 (ValueIdx.ix1 t)).toNat = (u t).val)
    (hv : ∀ t : Fin 16384, (a.1 1 (ValueIdx.ix1 t)).toNat = (v t).val) (t : Fin (cfg1 a).N) :
    (dat1 (F := Ideal) V a c).flushed 4 t = (((cfg1 a).win 4).blk t).view.read (Elt Ideal) (scores V c u v) := by
  show ((cfg1 a).win 4).cut ((cfg1 a).grid.coords t) ((dat1 (F := Ideal) V a c).after 4 t) = _
  rw [after1_4]
  funext y
  show readOut (F := Ideal) (iblk1 V a c 0 t) (iblk1 V a c 1 t) (iblk1 V a c 2 t) (iblk1 V a c 3 t) (((cfg1 a).win 4).xinj ((cfg1 a).grid.coords t) y)
      = scores V c u v ((((cfg1 a).win 4).blk t).view.emb y)
  refine Eq.trans ?_ (congrArg (scores V c u v) (emb4 a t y).symm)
  refine (readOut_apply _ _ _ _ _).trans ?_
  show _ = score (V c main_v76) (V c main_v77) (V c main_v78) (V c main_v79) (u (qn a t)) (v (qn a t))
  unfold score
  exact congrArg₂ (· + ·) (congrArg₂ (· + ·)
    (Finset.sum_congr rfl fun k _ => congrArg₂ (· * ·) (blk0_apply V a c u hu t k) (blk1_apply V a c v hv t k))
    (blk2_apply V a c u hu t)) (blk3_apply V a c v hv t)

set_option maxHeartbeats 100000 in
/-- Every point writes its block back: the next point's block is another entry. -/
theorem flush4 (t : Fin (cfg1 a).N) : ((cfg1 a).win 4).flush t = true := by
  have hout : ((cfg1 a).win 4).isOut = true := rfl
  have ht : t.val < 16384 := t.isLt
  unfold Pipeline.Window.flush
  rw [hout, Bool.true_and, Bool.or_eq_true, decide_eq_true_eq, decide_eq_true_eq]
  by_cases h : t.val + 1 = 16384
  · exact .inl h
  · refine .inr ⟨(by omega : t.val + 1 < 16384), fun e => ?_⟩
    have e0 := congrFun e (0 : Fin 3)
    rw [index4_val, index4_val] at e0
    exact absurd e0 (by show ¬ (t.val + 1 = t.val); omega)

set_option maxHeartbeats 100000 in
/-- Entry i of the result is in the block of point i: the 16384 one-entry blocks tile the array. -/
theorem cover4 (i : S16384x1x1.Idx) :
    ∃ t : Fin (cfg1 a).N, ((cfg1 a).win 4).flush t = true ∧ i ∈ (((cfg1 a).win 4).blk t).view.set := by
  have h0 : (i 0).val < (cfg1 a).N := (i 0).isLt
  have h1 : (i 1).val < 1 := (i 1).isLt
  have h2 : (i 2).val < 1 := (i 2).isLt
  refine ⟨⟨(i 0).val, h0⟩, flush4 a _, ?_⟩
  refine (Finset.ext_iff.mp (View.set_slice_whole main_v80 (((cfg1 a).win 4).rect ⟨(i 0).val, h0⟩)) i).mpr ?_
  have e0 := index4_val a ⟨(i 0).val, h0⟩
  obtain ⟨-, -, -, -, -, -, -, -, e1, e2⟩ := index_rest a ⟨(i 0).val, h0⟩
  refine Rect.mem_set_unit.mpr fun b => ?_
  match b with
  | ⟨0, _⟩ =>
    show ((cfg1 a).win 4).index ⟨(i 0).val, h0⟩ (0 : Fin 3) * 1 ≤ (i 0).val ∧ (i 0).val < ((cfg1 a).win 4).index ⟨(i 0).val, h0⟩ (0 : Fin 3) * 1 + 1
    rw [e0]; show (i 0).val * 1 ≤ (i 0).val ∧ (i 0).val < (i 0).val * 1 + 1; omega
  | ⟨1, _⟩ =>
    show ((cfg1 a).win 4).index ⟨(i 0).val, h0⟩ (1 : Fin 3) * 1 ≤ (i 1).val ∧ (i 1).val < ((cfg1 a).win 4).index ⟨(i 0).val, h0⟩ (1 : Fin 3) * 1 + 1
    rw [e1]; omega
  | ⟨2, _⟩ =>
    show ((cfg1 a).win 4).index ⟨(i 0).val, h0⟩ (2 : Fin 3) * 1 ≤ (i 2).val ∧ (i 2).val < ((cfg1 a).win 4).index ⟨(i 0).val, h0⟩ (2 : Fin 3) * 1 + 1
    rw [e2]; omega

/-- THE RESULT ARRAY after the readout's run: entry j is the score of the rows the two tables name at j. -/
theorem readout_arr (hu : ∀ t : Fin 16384, (a.1 0 (ValueIdx.ix1 t)).toNat = (u t).val)
    (hv : ∀ t : Fin 16384, (a.1 1 (ValueIdx.ix1 t)).toNat = (v t).val) :
    (dat1 (F := Ideal) V a c).arrAt 4 (cfg1 a).N
      = fun j : S16384x1x1.Idx =>
          score (V c main_v76) (V c main_v77) (V c main_v78) (V c main_v79) (u (j 0)) (v (j 0)) :=
  (dat1 (F := Ideal) V a c).arrAt_eq_of_cover 4 (scores V c u v)
    (fun t _ => flushed4_eq V a c u v hu hv t) (cover4 a)

end Cert.KernelIdeal.Frm

end
-- ==== Proof.KI.Ends.lean ====
/- The host operations between the two pallas_calls and after the second, read at an index. Two slices cut the
   150000 × 64 mean table into its first 100000 rows and its last 50000 rows; four reshapes give those two pieces and the
   two bias columns a unit middle axis. A row-major reshape keeps an entry's flat position, and with a unit middle axis
   entry (r, 0, k) of the result has the flat position of entry (r, k) of the operand; a slice from row o reads row
   o + r. After the second pallas_call its 16384 × 1 × 1 result is reshaped to a vector (entry i has the flat position of
   entry (i, 0, 0)) and a broadcast zero is added, which at the extended reals changes nothing. -/
import proofs.«409526_j29154238005727_3_alg».proof.Proof.KI.Fold
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem

/-! ## Two reshapes at an index -/

section Reshapes

variable {α : Type}

/-- A reshape that gives a matrix a unit middle axis reads, at (r, 0, k), the matrix at (r, k): both have flat
    position r · n2 + k. -/
theorem shapeCast_ab_a1b_apply {n0 n2 : Nat} (x : (⟨2, ![n0, n2]⟩ : Shape).Idx → α)
    (h : (⟨2, ![n0, n2]⟩ : Shape).ShapeCasts ⟨3, ![n0, 1, n2]⟩) (r : Fin n0) (k : Fin n2) :
    shapeCast ⟨3, ![n0, 1, n2]⟩ x h (ix3 r (0 : Fin 1) k) = x (ix2 r k) := by
  refine shapeCast_apply x h (ix3 r (0 : Fin 1) k) (ix2 r k) ?_
  rw [Shape.rowMajor_val_two, Shape.rowMajor_val_three]
  show r.val * n2 + k.val = (r.val * 1 + 0) * n2 + k.val
  simp

/-- A reshape of an array with two trailing unit axes to a vector reads, at i, the array at (i, 0, 0): both have flat
    position i. -/
theorem shapeCast_a11_a_apply {n0 : Nat} (x : (⟨3, ![n0, 1, 1]⟩ : Shape).Idx → α)
    (h : (⟨3, ![n0, 1, 1]⟩ : Shape).ShapeCasts ⟨1, ![n0]⟩) (i : Fin n0) :
    shapeCast ⟨1, ![n0]⟩ x h (ValueIdx.ix1 i) = x (ix3 i (0 : Fin 1) (0 : Fin 1)) := by
  refine shapeCast_apply x h (ValueIdx.ix1 i) (ix3 i (0 : Fin 1) (0 : Fin 1)) ?_
  rw [Shape.rowMajor_val_one, Shape.rowMajor_val_three]
  show (i.val * 1 + 0) * 1 + 0 = i.val
  simp

end Reshapes

/-! ## Between the two pallas_calls -/

section AnyFloat

variable {F : FTy → Type} [FloatOps F]
variable (m : (ℓ : Loc nD τ sig) → Buf (Elt F) ℓ) (ρ : Dev nD → PrngReg) (c : Dev nD)

/-- The user rows at the readout's entry: the mean table's rows from 0, sliced and given a unit middle axis. -/
theorem userRows_term :
    (V3 m ρ c main_v76 : (⟨S100000x1x64, .f32⟩ : BufTy).Contents (Elt F)) =
      shapeCast S100000x1x64
        (extractStridedSlice S100000x64 ![0, 0] (V2 m ρ c main_v73) slices_S150000x64_S100000x64_0_0)
        shapeCasts_S100000x64_S100000x1x64 := by
  show StableHlo.after hostOps1 (W2 m ρ c) (Proc.devRef .tc main_v76) = _
  after_results
  rfl

/-- The item rows at the readout's entry: the mean table's rows from 100000, sliced and given a unit middle axis. -/
theorem itemRows_term :
    (V3 m ρ c main_v77 : (⟨S50000x1x64, .f32⟩ : BufTy).Contents (Elt F)) =
      shapeCast S50000x1x64
        (extractStridedSlice S50000x64 ![100000, 0] (V2 m ρ c main_v73) slices_S150000x64_S50000x64_100000_0)
        shapeCasts_S50000x64_S50000x1x64 := by
  show StableHlo.after hostOps1 (W2 m ρ c) (Proc.devRef .tc main_v77) = _
  after_results
  rfl

/-- The user bias at the readout's entry: the launched column given a unit middle axis. -/
theorem userBias_term :
    (V3 m ρ c main_v78 : (⟨S100000x1x1, .f32⟩ : BufTy).Contents (Elt F)) =
      shapeCast S100000x1x1 (V2 m ρ c main_arg2) shapeCasts_S100000x1_S100000x1x1 := by
  show StableHlo.after hostOps1 (W2 m ρ c) (Proc.devRef .tc main_v78) = _
  after_results
  rfl

/-- The item bias at the readout's entry: the launched column given a unit middle axis. -/
theorem itemBias_term :
    (V3 m ρ c main_v79 : (⟨S50000x1x1, .f32⟩ : BufTy).Contents (Elt F)) =
      shapeCast S50000x1x1 (V2 m ρ c main_arg3) shapeCasts_S50000x1_S50000x1x1 := by
  show StableHlo.after hostOps1 (W2 m ρ c) (Proc.devRef .tc main_v79) = _
  after_results
  rfl

/-- User row r of the readout's table is row r of the mean table. -/
theorem userRows (r : Fin 100000) (k : Fin 64) :
    V3 m ρ c main_v76 (ix3 r (0 : Fin 1) k)
      = V2 m ρ c main_v73 (ix2 (⟨r.val, by have := r.isLt; omega⟩ : Fin 150000) k) := by
  rw [userRows_term]
  refine (shapeCast_ab_a1b_apply _ _ r k).trans ?_
  exact slice2_axis0_apply 0 _ _ r k _ (Nat.zero_add _).symm

/-- Item row r of the readout's table is row 100000 + r of the mean table. -/
theorem itemRows (r : Fin 50000) (k : Fin 64) :
    V3 m ρ c main_v77 (ix3 r (0 : Fin 1) k)
      = V2 m ρ c main_v73 (ix2 (⟨100000 + r.val, by have := r.isLt; omega⟩ : Fin 150000) k) := by
  rw [itemRows_term]
  refine (shapeCast_ab_a1b_apply _ _ r k).trans ?_
  exact slice2_axis0_apply 100000 _ _ r k _ rfl

/-- User r's bias at the readout's entry is the launched one. -/
theorem userBias (r : Fin 100000) :
    V3 m ρ c main_v78 (ix3 r (0 : Fin 1) (0 : Fin 1)) = V2 m ρ c main_arg2 (ix2 r (0 : Fin 1)) := by
  rw [userBias_term]
  exact shapeCast_ab_a1b_apply _ _ r (0 : Fin 1)

/-- Item r's bias at the readout's entry is the launched one. -/
theorem itemBias (r : Fin 50000) :
    V3 m ρ c main_v79 (ix3 r (0 : Fin 1) (0 : Fin 1)) = V2 m ρ c main_arg3 (ix2 r (0 : Fin 1)) := by
  rw [itemBias_term]
  exact shapeCast_ab_a1b_apply _ _ r (0 : Fin 1)

end AnyFloat

/-! ## After the second pallas_call -/

section AtIdeal

variable (m : (ℓ : Loc nD τ sig) → Buf (Elt Ideal) ℓ) (ρ : Dev nD → PrngReg) (c : Dev nD)

/-- The result at the end: the readout's array as a vector, plus a broadcast zero. -/
theorem result_term (hO : Ok m) :
    (W5 m ρ hO c (Proc.devRef .tc main_v83) : (⟨S16384, .f32⟩ : BufTy).Contents (Elt Ideal)) =
      addf (shapeCast S16384 (W4 m ρ hO c (Proc.devRef .tc main_v80)) shapeCasts_S16384x1x1_S16384)
        (broadcastInDim S16384 ![] bcast_S_S16384 (constant (F := Ideal) S_ .f32 0x00000000#32)) := by
  show StableHlo.after hostOps2 (W4 m ρ hO c) (Proc.devRef .tc main_v83) = _
  after_results
  rfl

/-- Entry i of the result is entry (i, 0, 0) of what the readout leaves: the added zero changes nothing. -/
theorem result_at (hO : Ok m) (i : Fin 16384) :
    W5 m ρ hO c (Proc.devRef .tc main_v83) (ValueIdx.ix1 i)
      = W4 m ρ hO c (Proc.devRef .tc main_v80) (ix3 i (0 : Fin 1) (0 : Fin 1)) := by
  rw [result_term]
  rw [addf_apply]
  rw [shapeCast_a11_a_apply]
  have hz : broadcastInDim S16384 ![] bcast_S_S16384 (constant (F := Ideal) S_ .f32 0x00000000#32) (ValueIdx.ix1 i) = 0 := by
    refine (broadcastInDim_apply _ _ _ (ValueIdx.ix1 i) ix0 (fun a => a.elim0)).trans ?_
    rw [constant_apply]
    exact Ideal.ofBits_zero_f32
  rw [hz, add_zero]

end AtIdeal

end Cert.KernelIdeal.Frm

end
-- ==== Proof.KI.KernelValue.lean ====
/- What the idealized kernel's program returns, as one function of its arguments on the extended reals. The result
   buffer at the end of the fold, read at query i, is the readout's output entry i (the closing reshape keeps the entry, the
   added zero changes nothing); that entry is the sum over the 64 lanes of the product of the two staged rows plus the two
   staged bias entries; the staged rows are rows u i and 100000 + v i of the mean table, the staged bias entries are entries
   u i and v i of the two bias columns, which no host operation and no pallas_call writes; and the mean table after the
   first pallas_call is the sum of the four layer tables times one quarter. Together: the readout of the quarter-scaled sum. -/
import proofs.«409526_j29154238005727_3_alg».proof.Proof.KI.Run
import proofs.«409526_j29154238005727_3_alg».proof.Proof.KI.MeanValue
import proofs.«409526_j29154238005727_3_alg».proof.Proof.KI.ReadoutValue
import proofs.«409526_j29154238005727_3_alg».proof.Proof.KI.Ends
import proofs.«409526_j29154238005727_3_alg».proof.Proof.Spec

set_option maxRecDepth 16384

noncomputable section

namespace Cert.KernelIdeal.Frm

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mean table when the readout's slices read it: the quarter-scaled sum of the four layer tables as the first
    pallas_call found them. -/
theorem meanTable (c : Dev nD) :
    V2 m ρ c main_v73 = Cert.Spec.meanMul (V1 m ρ c main_v33) (V1 m ρ c main_v46) (V1 m ρ c main_v59) (V1 m ρ c main_v72) :=
  (W2_arr m ρ c 4).trans (mean_arr (V1 m ρ) c)

/-- The two bias columns reach the readout as launched. -/
theorem userBiasCol (c : Dev nD) : V2 m ρ c main_arg2 = m ((c : Thread nD τ).loc main_arg2) :=
  (W2_of_ne m ρ c main_arg2 (by decide)).trans (W1d_of m ρ c main_arg2 (by decide))
theorem itemBiasCol (c : Dev nD) : V2 m ρ c main_arg3 = m ((c : Thread nD τ).loc main_arg3) :=
  (W2_of_ne m ρ c main_arg3 (by decide)).trans (W1d_of m ρ c main_arg3 (by decide))

/-- The score of a query from the four staged arrays, when the staged rows are rows p and 100000 + q of one table `M` and
    the staged bias entries are entries p and q of two columns. -/
theorem score_of_rows (A : S100000x1x64.Idx → EReal) (B : S50000x1x64.Idx → EReal) (ub : S100000x1x1.Idx → EReal) (ib : S50000x1x1.Idx → EReal)
    (M : Cert.Spec.SN.Idx → EReal) (x2 : Cert.Spec.SU.Idx → EReal) (x3 : Cert.Spec.SI.Idx → EReal) (p : Fin 100000) (q : Fin 50000)
    (hA : ∀ k : Fin 64, A (ValueIdx.ix3 p (0 : Fin 1) k) = M (ValueIdx.ix2 (⟨p.val, by have := p.isLt; omega⟩ : Fin 150000) k))
    (hB : ∀ k : Fin 64, B (ValueIdx.ix3 q (0 : Fin 1) k) = M (ValueIdx.ix2 (⟨100000 + q.val, by have := q.isLt; omega⟩ : Fin 150000) k))
    (hu : ub (ValueIdx.ix3 p (0 : Fin 1) (0 : Fin 1)) = x2 (ValueIdx.ix2 p (0 : Fin 1)))
    (hi : ib (ValueIdx.ix3 q (0 : Fin 1) (0 : Fin 1)) = x3 (ValueIdx.ix2 q (0 : Fin 1))) :
    score A B ub ib p q
      = ((∑ k : Fin 64, M (ValueIdx.ix2 (⟨p.val, by have := p.isLt; omega⟩ : Fin 150000) k)
            * M (ValueIdx.ix2 (⟨100000 + q.val, by have := q.isLt; omega⟩ : Fin 150000) k))
          + x2 (ValueIdx.ix2 p (0 : Fin 1))) + x3 (ValueIdx.ix2 q (0 : Fin 1)) := by
  unfold score
  simp only [hA, hB, hu, hi]

/-- The program's result, for id tables whose words are the row numbers `u`, `v`. -/
theorem kernel_is_readout (hO : Ok m) (c : Dev nD) (u : Fin 16384 → Fin 100000) (v : Fin 16384 → Fin 50000)
    (hu : ∀ t : Fin 16384, (tbl m 0 (ValueIdx.ix1 t)).toNat = (u t).val)
    (hv : ∀ t : Fin 16384, (tbl m 1 (ValueIdx.ix1 t)).toNat = (v t).val) :
    W5 m ρ hO c (Proc.devRef .tc main_v83)
      = Cert.Spec.readout
          (Cert.Spec.meanMul (V1 m ρ c main_v33) (V1 m ρ c main_v46) (V1 m ρ c main_v59) (V1 m ρ c main_v72))
          (m ((c : Thread nD τ).loc main_arg2)) (m ((c : Thread nD τ).loc main_arg3)) u v := by
  funext (i : S16384.Idx)
  obtain ⟨t, rfl⟩ : ∃ t : Fin 16384, i = ValueIdx.ix1 t := ⟨i 0, ValueIdx.eq_ix1 i⟩
  have h80 : W4 m ρ hO c (Proc.devRef .tc main_v80) = (dat1 (V3 m ρ) (adm1 m hO) c).arrAt 4 (cfg1 (adm1 m hO)).N :=
    W4_arr m ρ hO c 4
  refine (result_at m ρ c hO t).trans ?_
  refine (congrFun (h80.trans (readout_arr (V3 m ρ) (adm1 m hO) c u v hu hv)) (ValueIdx.ix3 t (0 : Fin 1) (0 : Fin 1))).trans ?_
  show score (V3 m ρ c main_v76) (V3 m ρ c main_v77) (V3 m ρ c main_v78) (V3 m ρ c main_v79) (u t) (v t) = _
  refine (score_of_rows _ _ _ _
    (Cert.Spec.meanMul (V1 m ρ c main_v33) (V1 m ρ c main_v46) (V1 m ρ c main_v59) (V1 m ρ c main_v72))
    (m ((c : Thread nD τ).loc main_arg2)) (m ((c : Thread nD τ).loc main_arg3)) (u t) (v t)
    (fun k => (userRows m ρ c (u t) k).trans (congrFun (meanTable m ρ c) _))
    (fun k => (itemRows m ρ c (v t) k).trans (congrFun (meanTable m ρ c) _))
    ((userBias m ρ c (u t)).trans (congrFun (userBiasCol m ρ c) _))
    ((itemBias m ρ c (v t)).trans (congrFun (itemBiasCol m ρ c) _))).trans ?_
  rfl

/-- The run with the result named: every execution terminates, nothing faults, the result buffer ends at the fold's last
    contents and the seven arguments as launched. -/
theorem run_result (hO : Ok m) : θ_run defs (onTc (τ := τ) (main (F := Ideal))) ⟨m, fun _ => 0, ρ⟩ (fun r => ∀ c : Dev nD,
      r.2.mem ((c.tc : Thread nD τ).loc main_v83) = W5 m ρ hO c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v83 (by decide)),
     (h c _ (mem_uc main_arg0 (by decide))).trans (W5_of m ρ hO c main_arg0 (by decide) (by decide) (by decide)),
     (h c _ (mem_uc main_arg1 (by decide))).trans (W5_of m ρ hO c main_arg1 (by decide) (by decide) (by decide)),
     (h c _ (mem_uc main_arg2 (by decide))).trans (W5_of m ρ hO c main_arg2 (by decide) (by decide) (by decide)),
     (h c _ (mem_uc main_arg3 (by decide))).trans (W5_of m ρ hO c main_arg3 (by decide) (by decide) (by decide)),
     (h c _ (mem_uc main_arg4 (by decide))).trans (W5_of m ρ hO c main_arg4 (by decide) (by decide) (by decide)),
     (h c _ (mem_uc main_arg5 (by decide))).trans (W5_of m ρ hO c main_arg5 (by decide) (by decide) (by decide)),
     (h c _ (mem_uc main_arg6 (by decide))).trans (W5_of m ρ hO c main_arg6 (by decide) (by decide) (by decide))⟩)
    (run_main m ρ hO)

end Cert.KernelIdeal.Frm

end
-- ==== Proof.IdsInRange.lean ====
/-
  The precondition read back at the two integer id inputs. The printed predicate is a conjunction, by `and` of one-bit
  words, of six `jnp.all`s: four over float arrays and two over the id vectors, the latter saying of every entry `w`
  that `0 ≤ w` and `w < n` as SIGNED 32-bit words (`n` = 100000 for the first vector, 50000 for the second). A word that
  is nonnegative signed has its top bit clear, so it reads the same signed and unsigned; below a literal `n < 2³¹` signed
  it is then below `n` unsigned. Only the two integer conjuncts are opened, so the statement holds at every float instance.
-/
import proofs.«409526_j29154238005727_3_alg».proof.Pre_finite_inputs
import proofs.«409526_j29154238005727_3_alg».proof.Proof.Gen.Pre_finite_inputs
import Idealize.ShloMosaic.Lib.ReduceAll
import Idealize.ShloMosaic.Lib.ValueIdx
import Idealize.ShloMosaic.Lib.StableHlo.Predicate

namespace Cert.PreRead

open Idealize.ShloMosaic Cert.Pre_finite_inputs

/-- The scalar shape has one index. -/
instance : Subsingleton S_.Idx := ⟨fun a b => funext fun d => d.elim0⟩

/-- A 32-bit word in [0, n) as a signed word, `n` a literal below 2³¹, is below `n` as an unsigned word. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide, BitVec.toInt_pos_iff] at h0
  have hw : w.toNat < 2 ^ 31 := by omega
  have hn' : (BitVec.ofNat 32 n).toNat = n := by rw [BitVec.toNat_ofNat]; omega
  have h := (StableHlo.Predicate.slt_iff_toNat hw (by rw [hn']; exact hn)).1 h1
  rwa [hn'] at h

theorem ids_in_range [Cert.Pre_finite_inputs.Facts] {F : FTy → Type} [FloatOps F]
    (a0 : FVec F S100000x64 .f32) (a1 : FVec F S50000x64 .f32) (a2 : FVec F S100000x1 .f32) (a3 : FVec F S50000x1 .f32)
    (a4 : IVec S2x1000000 32) (a5 a6 : IVec S16384 32)
    (h : Cert.Pre_finite_inputs.fn (F := F) a0 a1 a2 a3 a4 a5 a6 = fun _ => 1#1) :
    (∀ i : S16384.Idx, (a5 i).toNat < 100000) ∧ (∀ i : S16384.Idx, (a6 i).toNat < 50000) := by
  -- the predicate's one word, as the nested `and` of its six conjuncts
  have e := congrFun h ValueIdx.ix0
  dsimp only [fn, fn_part1, andi] at e
  -- the outer two conjuncts are the id vectors'; the float conjuncts stay closed
  obtain ⟨e1, hI⟩ := IntOp.andi_eq_one.1 e
  obtain ⟨-, hU⟩ := IntOp.andi_eq_one.1 e1
  constructor
  · intro i
    have hi := Host.reduce_andi_all _ _ _ _ _ hU i
    dsimp only [andi, cmpi, broadcastInDim, constantI] at hi
    obtain ⟨h0, h1⟩ := IntOp.andi_eq_one.1 hi
    exact toNat_lt_of_signed _ 100000 (by decide) h0 h1
  · intro i
    have hi := Host.reduce_andi_all _ _ _ _ _ hI i
    dsimp only [andi, cmpi, broadcastInDim, constantI] at hi
    obtain ⟨h0, h1⟩ := IntOp.andi_eq_one.1 hi
    exact toNat_lt_of_signed _ 50000 (by decide) h0 h1

end Cert.PreRead
-- ==== Proof.RefIsReadout.lean ====
/- The reference's readout, read at a query. The reference averages its four layer tables into the mean table, and
   for query t reads row user_ids[t] and row 100000 + item_ids[t] of it through two row gathers, sums the 64 products,
   and adds the two bias entries it reads through two point gathers. Every index first passes jnp's normalisation
   `select (w < 0) (w + n) w`, and a gather clamps its start index so that the slice fits. For ids that are row numbers
   (user ids below 100000, item ids below 50000) the words are not negative, no addition wraps, the normalisation keeps
   the word and the clamp is the identity: the reference's result is the specification's readout of the mean table. -/
import proofs.«409526_j29154238005727_3_alg».proof.Proof.RefReadP
import proofs.«409526_j29154238005727_3_alg».proof.Proof.Spec
import Idealize.ShloMosaic.Lib.ValueIdx
import Idealize.ShloMosaic.Lib.StableHlo.Predicate
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.ReadP

/-! ## Gathers read at an index -/
/-- The one entry of a list known to be a singleton. -/
theorem getElem_of_eq_singleton {β : Type} (l : List β) (b : β) (hl : l = [b]) (i : Nat) (h : i < l.length) : l[i]'h = b := by
  subst hl
  have hi : i = 0 := by simpa using h
  subst hi
  rfl

/-- A gather of whole rows of an [R × C] table by an [n × 1] column of start indices: result entry (p, k) is the
    table's entry (r, k) when the start index of query p, read as a signed integer, is the row number r. -/
theorem gather_rows_apply {α : Type} {R C n w : Nat} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (T : (⟨2, ![R, C]⟩ : Shape).Idx → α) (idx : IVec ⟨2, ![n, 1]⟩ w) (p : Fin n) (k : Fin C) (r : Fin R)
    (hr : (idx (ix2 p (0 : Fin 1))).toInt.toNat = r.val) :
    Host.gather d T idx (ix2 p k) = T (ix2 r k) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p k) idx 0 + d.batchCoord (ix2 p k) 0 + d.offCoord (ix2 p k) 0 = r.val
    rw [GatherDims.batchCoord_eq_zero _ _ _ (hb 0), GatherDims.offCoord_eq_zero _ _ _ hk, Nat.add_zero]
    unfold GatherDims.start
    rw [dif_pos hm, hsl]
    have hsi : d.siIdx (ix2 p k) ⟨List.idxOf (0 : Fin 2) d.startIndexMap, List.idxOf_lt_length_iff.2 hm⟩ = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        have hbd : d.batchDims = [0] := by
          show Shape.kept _ d.offsetDims = [0]
          rw [hoff]; rfl
        rw [getElem_of_eq_singleton _ _ hbd]
        rfl
      | ⟨1, _⟩ =>
        unfold GatherDims.siIdx
        rw [dif_pos (by rw [hivd])]
        apply Fin.ext
        show List.idxOf (0 : Fin 2) d.startIndexMap = 0
        rw [hsim]; simp
    rw [hsi, hr]
    have := r.isLt
    show min r.val (R - 1) = r.val
    omega
  | ⟨1, _⟩ =>
    have hk : (1 : Fin 2) ∈ d.sKept := by rw [GatherDims.mem_sKept, hcoll, hob]; simp
    have hm : (1 : Fin 2) ∉ d.startIndexMap := by rw [hsim]; simp
    show d.start (ix2 p k) idx 1 + d.batchCoord (ix2 p k) 1 + d.offCoord (ix2 p k) 1 = k.val
    rw [GatherDims.batchCoord_eq_zero _ _ _ (hb 1), Nat.add_zero]
    unfold GatherDims.start GatherDims.offCoord
    rw [dif_neg hm, dif_pos hk, Nat.zero_add, getElem_of_eq_singleton _ _ hoff]
    rfl

/-- A gather of single entries of an [R × 1] column by an [n × 2] table of two-component start indices (row, column):
    result entry p is the column's entry r when the row component of query p, read as a signed integer, is the row
    number r; the column component is clamped to the one column there is. -/
theorem gather_point_apply {α : Type} {R n w : Nat} (d : GatherDims ⟨2, ![R, 1]⟩ ⟨2, ![n, 2]⟩ ⟨1, ![n]⟩)
    (hoff : d.offsetDims = []) (hcoll : d.collapsedSliceDims = [0, 1]) (hob : d.operandBatchingDims = [])
    (hsim : d.startIndexMap = [0, 1]) (hivd : d.indexVectorDim = 1)
    (x : (⟨2, ![R, 1]⟩ : Shape).Idx → α) (idx : IVec ⟨2, ![n, 2]⟩ w) (p : Fin n) (r : Fin R)
    (hr : (idx (ix2 p (0 : Fin 2))).toInt.toNat = r.val) :
    Host.gather d x idx (ix1 p) = x (ix2 r (0 : Fin 1)) := by
  unfold Host.gather
  congr 1
  funext a
  apply Fin.ext
  match a with
  | ⟨0, _⟩ =>
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; simp
    have hsl : d.sliceSizes 0 = 1 := d.slice_collapsed 0 (by rw [hcoll]; simp)
    show d.start (ix1 p) idx 0 + d.batchCoord (ix1 p) 0 + d.offCoord (ix1 p) 0 = r.val
    rw [GatherDims.batchCoord_eq_zero _ _ _ hb, GatherDims.offCoord_eq_zero _ _ _ hk, Nat.add_zero]
    unfold GatherDims.start
    rw [dif_pos hm, hsl]
    have hsi : d.siIdx (ix1 p) ⟨List.idxOf (0 : Fin 2) d.startIndexMap, List.idxOf_lt_length_iff.2 hm⟩ = ix2 p (0 : Fin 2) := by
      funext b
      match b with
      | ⟨0, _⟩ =>
        unfold GatherDims.siIdx
        rw [dif_neg (by rw [hivd]; simp)]
        unfold GatherDims.siCoord
        apply Fin.ext
        simp only [Fin.val_cast]
        have e : ∀ X : Fin 1, ((ix1 p : (⟨1, ![n]⟩ : Shape).Idx) X).val = p.val := fun X => by
          have hX : X = 0 := Subsingleton.elim _ _
          subst hX; rfl
        exact e _
      | ⟨1, _⟩ =>
        unfold GatherDims.siIdx
        rw [dif_pos (by rw [hivd])]
        apply Fin.ext
        show List.idxOf (0 : Fin 2) d.startIndexMap = 0
        rw [hsim]; simp
    rw [hsi, hr]
    have := r.isLt
    show min r.val (R - 1) = r.val
    omega
  | ⟨1, _⟩ =>
    have h1 := (d.operandIdx (ix1 p) idx 1).isLt
    have h2 : ((d.operandIdx (ix1 p) idx 1 : Fin _) : Nat) < 1 := h1
    show ((d.operandIdx (ix1 p) idx 1 : Fin _) : Nat) = 0
    omega

/-! ## Words: ids that are row numbers -/

/-- A word below 2³¹ is not negative as a signed word: its signed comparison with zero gives the bit 0. -/
theorem slt_zero_of_small (w : BitVec 32) (hw : w.toNat < 2 ^ 31) : IntOp.cmpi .slt w 0#32 = 0#1 := by
  apply eq_zero_of_ne_one
  intro h
  have h' := (StableHlo.Predicate.slt_iff_toNat hw (by decide)).1 h
  have h0 : (0#32 : BitVec 32).toNat = 0 := rfl
  omega

/-- jnp's normalisation of an index, `select (w < 0) (w + c) w`, keeps a word that is not negative, whatever the
    other branch holds. -/
theorem select_norm_keep (w a : BitVec 32) (hw : w.toNat < 2 ^ 31) :
    Scalar.select (IntOp.cmpi .slt w 0#32) a w = w := by
  rw [slt_zero_of_small w hw, select_zero]

/-- A word below 2³¹, read as a signed integer, is its value. -/
theorem toInt_toNat_of_small (w : BitVec 32) (hw : w.toNat < 2 ^ 31) : w.toInt.toNat = w.toNat := by
  rw [StableHlo.Predicate.toInt_eq_toNat_of_lt hw, Int.toNat_natCast]

/-- Word addition that does not wrap adds the values. -/
theorem toNat_addi_of_lt (a b : BitVec 32) (h : a.toNat + b.toNat < 2 ^ 32) :
    (IntOp.addi a b).toNat = a.toNat + b.toNat := by
  unfold IntOp.addi
  rw [BitVec.toNat_add, Nat.mod_eq_of_lt h]

/-! ## The four index columns at a query -/

/-- The start index of the user row gather at query t is the user id. -/
theorem user_row_index (x5 : IVec S16384 32) (t : Fin 16384) (n : Nat) (hn : (x5 (ix1 t)).toNat = n) (hlt : n < 2 ^ 31) :
    (val_main_v83 (F := Ideal) x5 (ix2 t (0 : Fin 1))).toInt.toNat = n := by
  have hidx : idx_main_v83 (ix2 t (0 : Fin 1)) = ix1 t := by funext a; match a with | ⟨0, _⟩ => rfl
  rw [val_main_v83_apply, val_main_v82_apply, val_main_v79_apply, val_main_v78_apply, val_main_c_18_apply, hidx,
    select_norm_keep _ _ (by omega), toInt_toNat_of_small _ (by omega), hn]

/-- The start index of the item row gather at query t is 100000 plus the item id. -/
theorem item_row_index (x6 : IVec S16384 32) (t : Fin 16384) (n : Nat) (hn : (x6 (ix1 t)).toNat = n) (hlt : n < 50000) :
    (val_main_v92 (F := Ideal) x6 (ix2 t (0 : Fin 1))).toInt.toNat = 100000 + n := by
  have hidx : idx_main_v92 (ix2 t (0 : Fin 1)) = ix1 t := by funext a; match a with | ⟨0, _⟩ => rfl
  have h1 : (100000#32 : BitVec 32).toNat = 100000 := rfl
  have ha : (IntOp.addi 100000#32 (x6 (ix1 t))).toNat = 100000 + n := by
    rw [toNat_addi_of_lt _ _ (by rw [hn, h1]; omega), hn, h1]
  rw [val_main_v92_apply, val_main_v91_apply, val_main_v88_apply, val_main_v87_apply, val_main_c_21_apply,
    val_main_v86_apply, val_main_v85_apply, val_main_c_20_apply, hidx,
    select_norm_keep _ _ (by omega), toInt_toNat_of_small _ (by omega), ha]

/-- The row component of the user bias gather's start index at query t is the user id. -/
theorem user_bias_index (x5 : IVec S16384 32) (t : Fin 16384) (n : Nat) (hn : (x5 (ix1 t)).toNat = n) (hlt : n < 2 ^ 31) :
    (val_main_v105 (F := Ideal) x5 (ix2 t (0 : Fin 2))).toInt.toNat = n := by
  have hidx : idx_main_v103 (ix2 t (0 : Fin 1)) = ix1 t := by funext a; match a with | ⟨0, _⟩ => rfl
  unfold val_main_v105
  rw [concatenate_pair_apply_left (s₁ := S16384x1) (s₂ := S16384x1) _ _ _ _ (ix2 t (0 : Fin 2)) rfl (ix2 t (0 : Fin 1))
    (fun b => match b with | ⟨0, _⟩ => rfl | ⟨1, _⟩ => rfl)]
  rw [val_main_v103_apply, val_main_v100_apply, val_main_v97_apply, val_main_v96_apply, val_main_c_24_apply, hidx,
    select_norm_keep _ _ (by omega), toInt_toNat_of_small _ (by omega), hn]

/-- The row component of the item bias gather's start index at query t is the item id. -/
theorem item_bias_index (x6 : IVec S16384 32) (t : Fin 16384) (n : Nat) (hn : (x6 (ix1 t)).toNat = n) (hlt : n < 2 ^ 31) :
    (val_main_v116 (F := Ideal) x6 (ix2 t (0 : Fin 2))).toInt.toNat = n := by
  have hidx : idx_main_v114 (ix2 t (0 : Fin 1)) = ix1 t := by funext a; match a with | ⟨0, _⟩ => rfl
  unfold val_main_v116
  rw [concatenate_pair_apply_left (s₁ := S16384x1) (s₂ := S16384x1) _ _ _ _ (ix2 t (0 : Fin 2)) rfl (ix2 t (0 : Fin 1))
    (fun b => match b with | ⟨0, _⟩ => rfl | ⟨1, _⟩ => rfl)]
  rw [val_main_v114_apply, val_main_v111_apply, val_main_v108_apply, val_main_v107_apply, val_main_c_27_apply, hidx,
    select_norm_keep _ _ (by omega), toInt_toNat_of_small _ (by omega), hn]

/-! ## The mean table, and the readout -/

/-- The reference's mean table is the specification's: the four layers summed from the left and divided by four. -/
theorem mean_table (x0 : FVec Ideal S100000x64 .f32) (x1 : FVec Ideal S50000x64 .f32) (x4 : IVec S2x1000000 32) :
    val_main_v77 (F := Ideal) x0 x1 x4
      = Cert.Spec.meanDiv (val_main_v33 (F := Ideal) x0 x1) (val_main_v46 (F := Ideal) x0 x1 x4) (val_main_v60 (F := Ideal) x0 x1 x4) (val_main_v74 (F := Ideal) x0 x1 x4) := by
  funext j
  rw [val_main_v77_apply, val_main_v75_apply, val_main_v61_apply, val_main_v47_apply, val_main_v76_apply,
    val_main_cst_17_apply]
  unfold Cert.Spec.meanDiv Cert.Spec.layerSum
  simp only [Ideal.hostDivf_def, Ideal.addf_def, Ideal.ofBits_def]

/-- THE REFERENCE IS THE READOUT. For user ids that are row numbers below 100000 and item ids below 50000, the
    reference's result is the specification's readout of the mean of the four layers. -/
theorem ref_is_readout
    (x0 : FVec Ideal S100000x64 .f32) (x1 : FVec Ideal S50000x64 .f32) (x2 : FVec Ideal S100000x1 .f32) (x3 : FVec Ideal S50000x1 .f32)
    (x4 : IVec S2x1000000 32) (x5 x6 : IVec S16384 32)
    (u : Fin 16384 → Fin 100000) (v : Fin 16384 → Fin 50000)
    (hu : ∀ t : Fin 16384, (x5 (ix1 t)).toNat = (u t).val) (hv : ∀ t : Fin 16384, (x6 (ix1 t)).toNat = (v t).val) :
    val_main_v121 (F := Ideal) x0 x1 x2 x3 x4 x5 x6
      = Cert.Spec.readout
          (Cert.Spec.meanDiv (val_main_v33 (F := Ideal) x0 x1) (val_main_v46 (F := Ideal) x0 x1 x4) (val_main_v60 (F := Ideal) x0 x1 x4) (val_main_v74 (F := Ideal) x0 x1 x4))
          x2 x3 u v := by
  funext i
  obtain ⟨t, rfl⟩ : ∃ t : Fin 16384, i = ix1 t := ⟨i 0, eq_ix1 i⟩
  have hut := (u t).isLt
  have hvt := (v t).isLt
  -- the two bias entries
  have hb1 : val_main_v106 (F := Ideal) x2 x5 (ix1 t) = x2 (ix2 (u t) (0 : Fin 1)) := by
    unfold val_main_v106
    exact gather_point_apply _ rfl rfl rfl rfl rfl x2 _ t (u t) (user_bias_index x5 t _ (hu t) (by omega))
  have hb2 : val_main_v117 (F := Ideal) x3 x6 (ix1 t) = x3 (ix2 (v t) (0 : Fin 1)) := by
    unfold val_main_v117
    exact gather_point_apply _ rfl rfl rfl rfl rfl x3 _ t (v t) (item_bias_index x6 t _ (hv t) (by omega))
  -- the product of the two gathered rows at column k
  have hs : ∀ k : Fin 64, val_main_v94 (F := Ideal) x0 x1 x4 x5 x6 (idx_main_v95 (ix1 t) k)
      = Cert.Spec.meanDiv (val_main_v33 (F := Ideal) x0 x1) (val_main_v46 (F := Ideal) x0 x1 x4) (val_main_v60 (F := Ideal) x0 x1 x4) (val_main_v74 (F := Ideal) x0 x1 x4)
          (ix2 (⟨(u t).val, by omega⟩ : Fin 150000) k)
        * Cert.Spec.meanDiv (val_main_v33 (F := Ideal) x0 x1) (val_main_v46 (F := Ideal) x0 x1 x4) (val_main_v60 (F := Ideal) x0 x1 x4) (val_main_v74 (F := Ideal) x0 x1 x4)
          (ix2 (⟨100000 + (v t).val, by omega⟩ : Fin 150000) k) := by
    intro k
    have hk : idx_main_v95 (ix1 t) k = ix2 t k := by
      funext a; match a with | ⟨0, _⟩ => rfl | ⟨1, _⟩ => rfl
    rw [hk, val_main_v94_apply, Ideal.mulf_def]
    unfold val_main_v84 val_main_v93
    rw [gather_rows_apply _ rfl rfl rfl rfl rfl _ _ t k (⟨(u t).val, by omega⟩ : Fin 150000)
        (user_row_index x5 t _ (hu t) (by omega)),
      gather_rows_apply _ rfl rfl rfl rfl rfl _ _ t k (⟨100000 + (v t).val, by omega⟩ : Fin 150000)
        (item_row_index x6 t _ (hv t) hvt),
      mean_table]
  rw [val_main_v121_apply, val_main_v119_apply, val_main_v118_apply, val_main_v95_apply, val_main_v120_apply,
    val_main_cst_30_apply, val_main_cst_23_apply, hb1, hb2, Finset.sum_congr rfl (fun k _ => hs k)]
  unfold Cert.Spec.readout
  simp only [Ideal.addf_def, Ideal.ofBits_def, Ideal.ofBits_zero_f32, zero_add, add_zero]

end Cert.RefSide

end
-- ==== Proof.HeadEq.lean ====
/- The program's host operations before its first pallas_call compute, operation for operation, what the reference
   computes first: from the edge list the two endpoint vectors, the degrees and their inverse square roots with the
   infinite ones set to zero, every edge's normalised weight, the node table (the two embedding tables one above the
   other) and three propagation layers, each the gather of the previous layer's rows at the edges' endpoints, scaled by
   the edges' weights and added up at the other endpoints. So at the first pallas_call's entry the four tables it
   averages are the reference's node table and its three layers, as functions of the three arguments they depend on.
   The comparison goes stretch by stretch through the buffers both programs share, the computation between two such
   buffers carried as one function on both sides. Stated for any float instance. -/
import proofs.«409526_j29154238005727_3_alg».proof.Proof.KI.Fold
import proofs.«409526_j29154238005727_3_alg».proof.Proof.RefReadP
import Idealize.ShloMosaic.Lib.StableHlo.Run
import Idealize.ShloMosaic.Lib.Pipeline.Frame
import Idealize.ShloMosaic.Lib.Pipeline.Regions

set_option maxRecDepth 16384

noncomputable section

namespace Cert.HeadEq

open Idealize.ShloMosaic Idealize.ShloMosaic.TcCoe Idealize.SL.Sem Cert.KernelIdeal Cert.KernelIdeal.Gen Cert.KernelIdeal.Frm
open Cert.ReferenceIdeal.ReadP (val_main_v6 val_main_v7 val_main_v15 val_main_v17 val_main_v32 val_main_v33 val_main_v46 val_main_v60 val_main_v74)

variable {F : FTy → Type} [FloatOps F]

/-! ## The shared host functions -/

/-- A node index taken modulo the table's height when negative: `i + 150000` where `i < 0`, else `i`. -/
def wrap (i : (⟨S2000000, .i32⟩ : BufTy).Contents (Elt F)) : (⟨S2000000, .i32⟩ : BufTy).Contents (Elt F) :=
  select (cmpi .slt i (broadcastInDim S2000000 ![] bcast_S_S2000000 (constantI S_ 32 0#32 : (⟨S_, .i32⟩ : BufTy).Contents (Elt F))) : (⟨S2000000, .i1⟩ : BufTy).Contents (Elt F))
    (addi i (broadcastInDim S2000000 ![] bcast_S_S2000000 (constantI S_ 32 150000#32 : (⟨S_, .i32⟩ : BufTy).Contents (Elt F))) : (⟨S2000000, .i32⟩ : BufTy).Contents (Elt F))
    i

/-- The inverse square roots of the degrees with the infinite ones (isolated nodes) set to zero. -/
def zeroInf (d : (⟨S150000, .f32⟩ : BufTy).Contents (Elt F)) : (⟨S150000, .f32⟩ : BufTy).Contents (Elt F) :=
  select (cmpf (F := F) .oeq (Host.absf d : (⟨S150000, .f32⟩ : BufTy).Contents (Elt F))
      (broadcastInDim S150000 ![] bcast_S_S150000 (constant S_ .f32 0x7F800000#32 : (⟨S_, .f32⟩ : BufTy).Contents (Elt F)) : (⟨S150000, .f32⟩ : BufTy).Contents (Elt F)) : (⟨S150000, .i1⟩ : BufTy).Contents (Elt F))
    (broadcastInDim S150000 ![] bcast_S_S150000 (constant S_ .f32 0x00000000#32 : (⟨S_, .f32⟩ : BufTy).Contents (Elt F)) : (⟨S150000, .f32⟩ : BufTy).Contents (Elt F))
    d

/-- The normalised weight of every edge: the product of the two endpoints' inverse square root degrees. -/
def edgeW (d : (⟨S150000, .f32⟩ : BufTy).Contents (Elt F)) (s t : (⟨S2000000, .i32⟩ : BufTy).Contents (Elt F)) :
    (⟨S2000000, .f32⟩ : BufTy).Contents (Elt F) :=
  mulf (Host.gather gather_S150000_S2000000x1_S2000000_n_0_n_n_0_1_1 d
        (broadcastInDim S2000000x1 ![0] bcast_S2000000_S2000000x1_0 (wrap s) : (⟨S2000000x1, .i32⟩ : BufTy).Contents (Elt F)) : (⟨S2000000, .f32⟩ : BufTy).Contents (Elt F))
    (Host.gather gather_S150000_S2000000x1_S2000000_n_0_n_n_0_1_1 d
        (broadcastInDim S2000000x1 ![0] bcast_S2000000_S2000000x1_0 (wrap t) : (⟨S2000000x1, .i32⟩ : BufTy).Contents (Elt F)) : (⟨S2000000, .f32⟩ : BufTy).Contents (Elt F))

/-- One propagation layer: the rows of `x` at the edges' (wrapped) endpoints `s`, each scaled by its edge's weight,
    added up at the edges' other endpoints `t` from a zero table. -/
def layer (e : (⟨S2000000, .f32⟩ : BufTy).Contents (Elt F)) (s t : (⟨S2000000, .i32⟩ : BufTy).Contents (Elt F))
    (x : (⟨S150000x64, .f32⟩ : BufTy).Contents (Elt F)) : (⟨S150000x64, .f32⟩ : BufTy).Contents (Elt F) :=
  Host.scatterAdd scatter_S150000x64_S2000000x1_S2000000x64_1_0_0_1
    (broadcastInDim S150000x64 ![] bcast_S_S150000x64 (constant S_ .f32 0x00000000#32 : (⟨S_, .f32⟩ : BufTy).Contents (Elt F)) : (⟨S150000x64, .f32⟩ : BufTy).Contents (Elt F))
    (broadcastInDim S2000000x1 ![0] bcast_S2000000_S2000000x1_0 t : (⟨S2000000x1, .i32⟩ : BufTy).Contents (Elt F))
    (mulf (broadcastInDim S2000000x64 ![0, 1] bcast_S2000000x1_S2000000x64_0_1
          (broadcastInDim S2000000x1 ![0] bcast_S2000000_S2000000x1_0 e : (⟨S2000000x1, .f32⟩ : BufTy).Contents (Elt F)) : (⟨S2000000x64, .f32⟩ : BufTy).Contents (Elt F))
      (Host.gather gather_S150000x64_S2000000x1_S2000000x64_1_0_n_n_0_1_164 x
          (broadcastInDim S2000000x1 ![0] bcast_S2000000_S2000000x1_0 (wrap s) : (⟨S2000000x1, .i32⟩ : BufTy).Contents (Elt F)) : (⟨S2000000x64, .f32⟩ : BufTy).Contents (Elt F)) : (⟨S2000000x64, .f32⟩ : BufTy).Contents (Elt F))

/-! ## The reference's stages as these functions of earlier stages -/

theorem ref_v17 (x4 : (⟨S2x1000000, .i32⟩ : BufTy).Contents (Elt F)) :
    val_main_v17 (F := F) x4 = zeroInf (val_main_v15 (F := F) x4) := by chain_rfl
theorem ref_v32 (x4 : (⟨S2x1000000, .i32⟩ : BufTy).Contents (Elt F)) :
    val_main_v32 (F := F) x4 = edgeW (val_main_v17 (F := F) x4) (val_main_v6 (F := F) x4) (val_main_v7 (F := F) x4) := by chain_rfl
theorem ref_v46 (x0 : (⟨S100000x64, .f32⟩ : BufTy).Contents (Elt F)) (x1 : (⟨S50000x64, .f32⟩ : BufTy).Contents (Elt F))
    (x4 : (⟨S2x1000000, .i32⟩ : BufTy).Contents (Elt F)) :
    val_main_v46 (F := F) x0 x1 x4
      = layer (val_main_v32 (F := F) x4) (val_main_v7 (F := F) x4) (val_main_v6 (F := F) x4) (val_main_v33 (F := F) x0 x1) := by chain_rfl
theorem ref_v60 (x0 : (⟨S100000x64, .f32⟩ : BufTy).Contents (Elt F)) (x1 : (⟨S50000x64, .f32⟩ : BufTy).Contents (Elt F))
    (x4 : (⟨S2x1000000, .i32⟩ : BufTy).Contents (Elt F)) :
    val_main_v60 (F := F) x0 x1 x4
      = layer (val_main_v32 (F := F) x4) (val_main_v7 (F := F) x4) (val_main_v6 (F := F) x4) (val_main_v46 (F := F) x0 x1 x4) := by chain_rfl
theorem ref_v74 (x0 : (⟨S100000x64, .f32⟩ : BufTy).Contents (Elt F)) (x1 : (⟨S50000x64, .f32⟩ : BufTy).Contents (Elt F))
    (x4 : (⟨S2x1000000, .i32⟩ : BufTy).Contents (Elt F)) :
    val_main_v74 (F := F) x0 x1 x4
      = layer (val_main_v32 (F := F) x4) (val_main_v7 (F := F) x4) (val_main_v6 (F := F) x4) (val_main_v60 (F := F) x0 x1 x4) := by chain_rfl

/-! ## The kernel's host operations, stretch by stretch

Each lemma is about one stretch run from ANY contents `V` of the buffers: what the stretch leaves in the buffer it
computes, as one of the functions above of what `V` holds in the buffers the stretch reads, and that it leaves alone the
buffers later stretches read. Both sides are closed terms over `V`, equal by computation. -/

local notation "⟪" r "⟫" => (Proc.devRef (τ := τ) Proc.tc r : DevRef τ sig)

/-- The last stretch of 68 host operations, cut at the buffers both programs share: the edge weights (19 operations),
    the node table (1), and the three propagation layers (16 each). -/
def cA : List (HloOp τ sig (Elt F)) := (hostOps0_4 (F := F)).take 19
def cB : List (HloOp τ sig (Elt F)) := ((hostOps0_4 (F := F)).drop 19).take 1
def cC : List (HloOp τ sig (Elt F)) := ((hostOps0_4 (F := F)).drop 20).take 16
def cD : List (HloOp τ sig (Elt F)) := ((hostOps0_4 (F := F)).drop 36).take 16
def cE : List (HloOp τ sig (Elt F)) := (hostOps0_4 (F := F)).drop 52

theorem ops4_split : (hostOps0_4 : List (HloOp τ sig (Elt F))) = cA ++ (cB ++ (cC ++ (cD ++ cE))) := by chain_rfl

/-! ### The first 21 operations: the edges' endpoints and the degrees' inverse square roots -/

theorem k0_v6 (V : Valuation τ sig (Elt F)) :
    StableHlo.after hostOps0 V ⟪main_v6⟫ = val_main_v6 (F := F) (V ⟪main_arg4⟫) := by chain_rfl
theorem k0_v7 (V : Valuation τ sig (Elt F)) :
    StableHlo.after hostOps0 V ⟪main_v7⟫ = val_main_v7 (F := F) (V ⟪main_arg4⟫) := by chain_rfl
theorem k0_v15 (V : Valuation τ sig (Elt F)) :
    StableHlo.after hostOps0 V ⟪main_v15⟫ = val_main_v15 (F := F) (V ⟪main_arg4⟫) := by chain_rfl
theorem k0_a0 (V : Valuation τ sig (Elt F)) : StableHlo.after hostOps0 V ⟪main_arg0⟫ = V ⟪main_arg0⟫ := by chain_rfl
theorem k0_a1 (V : Valuation τ sig (Elt F)) : StableHlo.after hostOps0 V ⟪main_arg1⟫ = V ⟪main_arg1⟫ := by chain_rfl

/-! ### The two outlined functions: infinite entries set to zero -/

theorem km_v17 (V : Valuation τ sig (Elt F)) :
    StableHlo.after hostOps0_3 (StableHlo.after hostOps0_2 (StableHlo.after hostOps0_1 V)) ⟪main_v17⟫ = zeroInf (V ⟪main_v15⟫) := by chain_rfl
theorem km_v6 (V : Valuation τ sig (Elt F)) : StableHlo.after hostOps0_3 (StableHlo.after hostOps0_2 (StableHlo.after hostOps0_1 V)) ⟪main_v6⟫ = V ⟪main_v6⟫ := by chain_rfl
theorem km_v7 (V : Valuation τ sig (Elt F)) : StableHlo.after hostOps0_3 (StableHlo.after hostOps0_2 (StableHlo.after hostOps0_1 V)) ⟪main_v7⟫ = V ⟪main_v7⟫ := by chain_rfl
theorem km_a0 (V : Valuation τ sig (Elt F)) : StableHlo.after hostOps0_3 (StableHlo.after hostOps0_2 (StableHlo.after hostOps0_1 V)) ⟪main_arg0⟫ = V ⟪main_arg0⟫ := by chain_rfl
theorem km_a1 (V : Valuation τ sig (Elt F)) : StableHlo.after hostOps0_3 (StableHlo.after hostOps0_2 (StableHlo.after hostOps0_1 V)) ⟪main_arg1⟫ = V ⟪main_arg1⟫ := by chain_rfl

/-! ### The edge weights -/

theorem kA_v32 (V : Valuation τ sig (Elt F)) :
    StableHlo.after cA V ⟪main_v32⟫ = edgeW (V ⟪main_v17⟫) (V ⟪main_v6⟫) (V ⟪main_v7⟫) := by chain_rfl
theorem kA_v6 (V : Valuation τ sig (Elt F)) : StableHlo.after cA V ⟪main_v6⟫ = V ⟪main_v6⟫ := by chain_rfl
theorem kA_v7 (V : Valuation τ sig (Elt F)) : StableHlo.after cA V ⟪main_v7⟫ = V ⟪main_v7⟫ := by chain_rfl
theorem kA_a0 (V : Valuation τ sig (Elt F)) : StableHlo.after cA V ⟪main_arg0⟫ = V ⟪main_arg0⟫ := by chain_rfl
theorem kA_a1 (V : Valuation τ sig (Elt F)) : StableHlo.after cA V ⟪main_arg1⟫ = V ⟪main_arg1⟫ := by chain_rfl

/-! ### The node table -/

theorem kB_v33 (V : Valuation τ sig (Elt F)) :
    StableHlo.after cB V ⟪main_v33⟫ = val_main_v33 (F := F) (V ⟪main_arg0⟫) (V ⟪main_arg1⟫) := by chain_rfl
theorem kB_v6 (V : Valuation τ sig (Elt F)) : StableHlo.after cB V ⟪main_v6⟫ = V ⟪main_v6⟫ := by chain_rfl
theorem kB_v7 (V : Valuation τ sig (Elt F)) : StableHlo.after cB V ⟪main_v7⟫ = V ⟪main_v7⟫ := by chain_rfl
theorem kB_v32 (V : Valuation τ sig (Elt F)) : StableHlo.after cB V ⟪main_v32⟫ = V ⟪main_v32⟫ := by chain_rfl

/-! ### The three propagation layers -/

theorem kC_v46 (V : Valuation τ sig (Elt F)) :
    StableHlo.after cC V ⟪main_v46⟫ = layer (V ⟪main_v32⟫) (V ⟪main_v7⟫) (V ⟪main_v6⟫) (V ⟪main_v33⟫) := by chain_rfl
theorem kC_v6 (V : Valuation τ sig (Elt F)) : StableHlo.after cC V ⟪main_v6⟫ = V ⟪main_v6⟫ := by chain_rfl
theorem kC_v7 (V : Valuation τ sig (Elt F)) : StableHlo.after cC V ⟪main_v7⟫ = V ⟪main_v7⟫ := by chain_rfl
theorem kC_v32 (V : Valuation τ sig (Elt F)) : StableHlo.after cC V ⟪main_v32⟫ = V ⟪main_v32⟫ := by chain_rfl
theorem kC_v33 (V : Valuation τ sig (Elt F)) : StableHlo.after cC V ⟪main_v33⟫ = V ⟪main_v33⟫ := by chain_rfl
theorem kD_v59 (V : Valuation τ sig (Elt F)) :
    StableHlo.after cD V ⟪main_v59⟫ = layer (V ⟪main_v32⟫) (V ⟪main_v7⟫) (V ⟪main_v6⟫) (V ⟪main_v46⟫) := by chain_rfl
theorem kD_v6 (V : Valuation τ sig (Elt F)) : StableHlo.after cD V ⟪main_v6⟫ = V ⟪main_v6⟫ := by chain_rfl
theorem kD_v7 (V : Valuation τ sig (Elt F)) : StableHlo.after cD V ⟪main_v7⟫ = V ⟪main_v7⟫ := by chain_rfl
theorem kD_v32 (V : Valuation τ sig (Elt F)) : StableHlo.after cD V ⟪main_v32⟫ = V ⟪main_v32⟫ := by chain_rfl
theorem kD_v33 (V : Valuation τ sig (Elt F)) : StableHlo.after cD V ⟪main_v33⟫ = V ⟪main_v33⟫ := by chain_rfl
theorem kD_v46 (V : Valuation τ sig (Elt F)) : StableHlo.after cD V ⟪main_v46⟫ = V ⟪main_v46⟫ := by chain_rfl
theorem kE_v72 (V : Valuation τ sig (Elt F)) :
    StableHlo.after cE V ⟪main_v72⟫ = layer (V ⟪main_v32⟫) (V ⟪main_v7⟫) (V ⟪main_v6⟫) (V ⟪main_v59⟫) := by chain_rfl
theorem kE_v33 (V : Valuation τ sig (Elt F)) : StableHlo.after cE V ⟪main_v33⟫ = V ⟪main_v33⟫ := by chain_rfl
theorem kE_v46 (V : Valuation τ sig (Elt F)) : StableHlo.after cE V ⟪main_v46⟫ = V ⟪main_v46⟫ := by chain_rfl
theorem kE_v59 (V : Valuation τ sig (Elt F)) : StableHlo.after cE V ⟪main_v59⟫ = V ⟪main_v59⟫ := by chain_rfl

/-! ## The contents between the stretches, from any launch contents `Y` -/

section Chain

variable (Y : Valuation τ sig (Elt F))

/-- After the first 21 operations; after the two outlined functions; after the edge weights, the node table and each layer. -/
def Y1 : Valuation τ sig (Elt F) := StableHlo.after hostOps0 Y
def Y2 : Valuation τ sig (Elt F) := StableHlo.after hostOps0_3 (StableHlo.after hostOps0_2 (StableHlo.after hostOps0_1 (Y1 Y)))
def YA : Valuation τ sig (Elt F) := StableHlo.after cA (Y2 Y)
def YB : Valuation τ sig (Elt F) := StableHlo.after cB (YA Y)
def YC : Valuation τ sig (Elt F) := StableHlo.after cC (YB Y)
def YD : Valuation τ sig (Elt F) := StableHlo.after cD (YC Y)
def YE : Valuation τ sig (Elt F) := StableHlo.after cE (YD Y)

/-- The last of them is the contents after all five stretches of the program's host operations. -/
theorem YE_eq : YE Y = StableHlo.after hostOps0_4 (StableHlo.after hostOps0_3 (StableHlo.after hostOps0_2
    (StableHlo.after hostOps0_1 (StableHlo.after hostOps0 Y)))) := by
  unfold YE YD YC YB YA Y2 Y1
  rw [ops4_split, StableHlo.after_append, StableHlo.after_append, StableHlo.after_append, StableHlo.after_append]

theorem Y1_v6 : Y1 Y ⟪main_v6⟫ = val_main_v6 (F := F) (Y ⟪main_arg4⟫) := k0_v6 Y
theorem Y1_v7 : Y1 Y ⟪main_v7⟫ = val_main_v7 (F := F) (Y ⟪main_arg4⟫) := k0_v7 Y
theorem Y1_v15 : Y1 Y ⟪main_v15⟫ = val_main_v15 (F := F) (Y ⟪main_arg4⟫) := k0_v15 Y
theorem Y1_a0 : Y1 Y ⟪main_arg0⟫ = Y ⟪main_arg0⟫ := k0_a0 Y
theorem Y1_a1 : Y1 Y ⟪main_arg1⟫ = Y ⟪main_arg1⟫ := k0_a1 Y

theorem Y2_v17 : Y2 Y ⟪main_v17⟫ = val_main_v17 (F := F) (Y ⟪main_arg4⟫) := by
  have h := km_v17 (Y1 Y)
  rw [Y1_v15 Y] at h
  exact h.trans (ref_v17 _).symm
theorem Y2_v6 : Y2 Y ⟪main_v6⟫ = val_main_v6 (F := F) (Y ⟪main_arg4⟫) := (km_v6 (Y1 Y)).trans (Y1_v6 Y)
theorem Y2_v7 : Y2 Y ⟪main_v7⟫ = val_main_v7 (F := F) (Y ⟪main_arg4⟫) := (km_v7 (Y1 Y)).trans (Y1_v7 Y)
theorem Y2_a0 : Y2 Y ⟪main_arg0⟫ = Y ⟪main_arg0⟫ := (km_a0 (Y1 Y)).trans (Y1_a0 Y)
theorem Y2_a1 : Y2 Y ⟪main_arg1⟫ = Y ⟪main_arg1⟫ := (km_a1 (Y1 Y)).trans (Y1_a1 Y)

theorem YA_v32 : YA Y ⟪main_v32⟫ = val_main_v32 (F := F) (Y ⟪main_arg4⟫) := by
  have h := kA_v32 (Y2 Y)
  rw [Y2_v17 Y, Y2_v6 Y, Y2_v7 Y] at h
  exact h.trans (ref_v32 _).symm
theorem YA_v6 : YA Y ⟪main_v6⟫ = val_main_v6 (F := F) (Y ⟪main_arg4⟫) := (kA_v6 (Y2 Y)).trans (Y2_v6 Y)
theorem YA_v7 : YA Y ⟪main_v7⟫ = val_main_v7 (F := F) (Y ⟪main_arg4⟫) := (kA_v7 (Y2 Y)).trans (Y2_v7 Y)
theorem YA_a0 : YA Y ⟪main_arg0⟫ = Y ⟪main_arg0⟫ := (kA_a0 (Y2 Y)).trans (Y2_a0 Y)
theorem YA_a1 : YA Y ⟪main_arg1⟫ = Y ⟪main_arg1⟫ := (kA_a1 (Y2 Y)).trans (Y2_a1 Y)

theorem YB_v33 : YB Y ⟪main_v33⟫ = val_main_v33 (F := F) (Y ⟪main_arg0⟫) (Y ⟪main_arg1⟫) := by
  have h := kB_v33 (YA Y)
  rw [YA_a0 Y, YA_a1 Y] at h
  exact h
theorem YB_v6 : YB Y ⟪main_v6⟫ = val_main_v6 (F := F) (Y ⟪main_arg4⟫) := (kB_v6 (YA Y)).trans (YA_v6 Y)
theorem YB_v7 : YB Y ⟪main_v7⟫ = val_main_v7 (F := F) (Y ⟪main_arg4⟫) := (kB_v7 (YA Y)).trans (YA_v7 Y)
theorem YB_v32 : YB Y ⟪main_v32⟫ = val_main_v32 (F := F) (Y ⟪main_arg4⟫) := (kB_v32 (YA Y)).trans (YA_v32 Y)

theorem YC_v46 : YC Y ⟪main_v46⟫ = val_main_v46 (F := F) (Y ⟪main_arg0⟫) (Y ⟪main_arg1⟫) (Y ⟪main_arg4⟫) := by
  have h := kC_v46 (YB Y)
  rw [YB_v32 Y, YB_v7 Y, YB_v6 Y, YB_v33 Y] at h
  exact h.trans (ref_v46 _ _ _).symm
theorem YC_v6 : YC Y ⟪main_v6⟫ = val_main_v6 (F := F) (Y ⟪main_arg4⟫) := (kC_v6 (YB Y)).trans (YB_v6 Y)
theorem YC_v7 : YC Y ⟪main_v7⟫ = val_main_v7 (F := F) (Y ⟪main_arg4⟫) := (kC_v7 (YB Y)).trans (YB_v7 Y)
theorem YC_v32 : YC Y ⟪main_v32⟫ = val_main_v32 (F := F) (Y ⟪main_arg4⟫) := (kC_v32 (YB Y)).trans (YB_v32 Y)
theorem YC_v33 : YC Y ⟪main_v33⟫ = val_main_v33 (F := F) (Y ⟪main_arg0⟫) (Y ⟪main_arg1⟫) := (kC_v33 (YB Y)).trans (YB_v33 Y)

theorem YD_v59 : YD Y ⟪main_v59⟫ = val_main_v60 (F := F) (Y ⟪main_arg0⟫) (Y ⟪main_arg1⟫) (Y ⟪main_arg4⟫) := by
  have h := kD_v59 (YC Y)
  rw [YC_v32 Y, YC_v7 Y, YC_v6 Y, YC_v46 Y] at h
  exact h.trans (ref_v60 _ _ _).symm
theorem YD_v6 : YD Y ⟪main_v6⟫ = val_main_v6 (F := F) (Y ⟪main_arg4⟫) := (kD_v6 (YC Y)).trans (YC_v6 Y)
theorem YD_v7 : YD Y ⟪main_v7⟫ = val_main_v7 (F := F) (Y ⟪main_arg4⟫) := (kD_v7 (YC Y)).trans (YC_v7 Y)
theorem YD_v32 : YD Y ⟪main_v32⟫ = val_main_v32 (F := F) (Y ⟪main_arg4⟫) := (kD_v32 (YC Y)).trans (YC_v32 Y)
theorem YD_v33 : YD Y ⟪main_v33⟫ = val_main_v33 (F := F) (Y ⟪main_arg0⟫) (Y ⟪main_arg1⟫) := (kD_v33 (YC Y)).trans (YC_v33 Y)
theorem YD_v46 : YD Y ⟪main_v46⟫ = val_main_v46 (F := F) (Y ⟪main_arg0⟫) (Y ⟪main_arg1⟫) (Y ⟪main_arg4⟫) := (kD_v46 (YC Y)).trans (YC_v46 Y)

theorem YE_v72 : YE Y ⟪main_v72⟫ = val_main_v74 (F := F) (Y ⟪main_arg0⟫) (Y ⟪main_arg1⟫) (Y ⟪main_arg4⟫) := by
  have h := kE_v72 (YD Y)
  rw [YD_v32 Y, YD_v7 Y, YD_v6 Y, YD_v59 Y] at h
  exact h.trans (ref_v74 _ _ _).symm
theorem YE_v33 : YE Y ⟪main_v33⟫ = val_main_v33 (F := F) (Y ⟪main_arg0⟫) (Y ⟪main_arg1⟫) := (kE_v33 (YD Y)).trans (YD_v33 Y)
theorem YE_v46 : YE Y ⟪main_v46⟫ = val_main_v46 (F := F) (Y ⟪main_arg0⟫) (Y ⟪main_arg1⟫) (Y ⟪main_arg4⟫) := (kE_v46 (YD Y)).trans (YD_v46 Y)
theorem YE_v59 : YE Y ⟪main_v59⟫ = val_main_v60 (F := F) (Y ⟪main_arg0⟫) (Y ⟪main_arg1⟫) (Y ⟪main_arg4⟫) := (kE_v59 (YD Y)).trans (YD_v59 Y)

end Chain

/-! ## The four tables the mean reads, at the first pallas_call's entry -/

variable (m : (ℓ : Loc nD τ sig) → Buf (Elt F) ℓ) (ρ : Dev nD → PrngReg) (c : Dev nD)

/-- The node table: the two embedding tables one above the other. -/
theorem layer0 : V1 m ρ c main_v33
    = val_main_v33 (F := F) (m ((c : Thread nD τ).loc main_arg0)) (m ((c : Thread nD τ).loc main_arg1)) := by
  have h := YE_v33 (W0 m ρ c)
  rw [YE_eq] at h
  exact h

/-- The first, second and third propagation layers. -/
theorem layer1 : V1 m ρ c main_v46
    = val_main_v46 (F := F) (m ((c : Thread nD τ).loc main_arg0)) (m ((c : Thread nD τ).loc main_arg1)) (m ((c : Thread nD τ).loc main_arg4)) := by
  have h := YE_v46 (W0 m ρ c)
  rw [YE_eq] at h
  exact h
theorem layer2 : V1 m ρ c main_v59
    = val_main_v60 (F := F) (m ((c : Thread nD τ).loc main_arg0)) (m ((c : Thread nD τ).loc main_arg1)) (m ((c : Thread nD τ).loc main_arg4)) := by
  have h := YE_v59 (W0 m ρ c)
  rw [YE_eq] at h
  exact h
theorem layer3 : V1 m ρ c main_v72
    = val_main_v74 (F := F) (m ((c : Thread nD τ).loc main_arg0)) (m ((c : Thread nD τ).loc main_arg1)) (m ((c : Thread nD τ).loc main_arg4)) := by
  have h := YE_v72 (W0 m ρ c)
  rw [YE_eq] at h
  exact h

end Cert.HeadEq

end
-- ==== Proof.lean ====
/- The proof of `Cert.Claim`. Under the precondition — every float input finite and, added as the evident domain of the
   reference's own indexing, every user id in [0, 100000) and every item id in [0, 50000) — the three programs run to the
   end without a fault and leave their arguments unchanged, and the idealized kernel and the idealized reference return the
   same extended reals.
   The kernel's program is nine segments (five stretches of host operations, the mean's pallas_call, a stretch of slices and
   reshapes, the readout's pallas_call, a closing stretch); its run holds whenever every block the two id tables index lies
   inside its array, which the ids' ranges give. The same run, stated for any float instance, is the frame of the
   word-level kernel and of the idealized one. The reference is host operations only: its run is the composed term.
   The two results: both programs compute the same four layer tables by the same host operations; the kernel scales their
   sum by one quarter in a pallas_call, the reference divides it by four, one function on every extended real; the kernel's
   readout stages rows u and 100000 + v of that mean table and entries u and v of the bias columns through its id tables,
   the reference gathers them, and with the ids in range the gathered rows are the staged ones. -/
import proofs.«409526_j29154238005727_3_alg».proof.Defs
import proofs.«409526_j29154238005727_3_alg».proof.Proof.Gen.Kernel
import proofs.«409526_j29154238005727_3_alg».proof.Proof.Gen.KernelIdeal
import proofs.«409526_j29154238005727_3_alg».proof.Proof.Gen.ReferenceIdeal
import proofs.«409526_j29154238005727_3_alg».proof.Proof.Gen.Pre_finite_inputs
import proofs.«409526_j29154238005727_3_alg».proof.Proof.K.Run
import proofs.«409526_j29154238005727_3_alg».proof.Proof.K.Ok
import proofs.«409526_j29154238005727_3_alg».proof.Proof.KI.Ok
import proofs.«409526_j29154238005727_3_alg».proof.Proof.KI.KernelValue
import proofs.«409526_j29154238005727_3_alg».proof.Proof.IdsInRange
import proofs.«409526_j29154238005727_3_alg».proof.Proof.RefReadP
import proofs.«409526_j29154238005727_3_alg».proof.Proof.RefIsReadout
import proofs.«409526_j29154238005727_3_alg».proof.Proof.HeadEq
import proofs.«409526_j29154238005727_3_alg».proof.Proof.Spec
import Idealize.ShloMosaic.Adequacy
import Idealize.ShloMosaic.Init

set_option maxRecDepth 16384

noncomputable section

namespace Cert.Proof

open Idealize.ShloMosaic Idealize.SL.Sem Idealize.ShloMosaic.TcCoe

/-- Every block the id tables index lies inside its array, from the precondition's two range conjuncts read on the one device. -/
theorem ok_kernel (m : (ℓ : Loc Cert.Kernel.nD Cert.Kernel.τ Cert.Kernel.sig) → Buf (Elt Bits) ℓ) (h : Cert.Pre_Kernel m) :
    Cert.Kernel.Frm.Ok m :=
  have hr := Cert.PreRead.ids_in_range _ _ _ _ _ _ _ (h 0)
  Cert.Kernel.Frm.ok_of_ids m (fun x => hr.1 x) (fun x => hr.2 x)
theorem ok_ideal (m : (ℓ : Loc Cert.KernelIdeal.nD Cert.KernelIdeal.τ Cert.KernelIdeal.sig) → Buf (Elt Ideal) ℓ) (h : Cert.Pre_KernelIdeal m) :
    Cert.KernelIdeal.Frm.Ok m :=
  have hr := Cert.PreRead.ids_in_range _ _ _ _ _ _ _ (h 0)
  Cert.KernelIdeal.Frm.ok_of_ids m (fun x => hr.1 x) (fun x => hr.2 x)

theorem frame_k : Cert.frame_Kernel := fun m ρ h => Cert.Kernel.Frm.frame m ρ (ok_kernel m h)
theorem frame_ki : Cert.frame_KernelIdeal := fun m ρ h => Cert.KernelIdeal.Frm.frame m ρ (ok_ideal m h)
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs return the readout of the mean of the four layer tables. -/
theorem algebraic : Cert.algebraic_KernelIdeal_ReferenceIdeal := by
  intro m ρ m' ρ' hpre hagree
  have hO := ok_ideal m hpre
  have hr := Cert.PreRead.ids_in_range _ _ _ _ _ _ _ (hpre 0)
  obtain ⟨u, hu⟩ : ∃ u : Fin 16384 → Fin 100000, ∀ t : Fin 16384, (Cert.KernelIdeal.Frm.tbl m 0 (ValueIdx.ix1 t)).toNat = (u t).val :=
    ⟨fun t => ⟨_, hr.1 (ValueIdx.ix1 t)⟩, fun _ => rfl⟩
  obtain ⟨v, hv⟩ : ∃ v : Fin 16384 → Fin 50000, ∀ t : Fin 16384, (Cert.KernelIdeal.Frm.tbl m 1 (ValueIdx.ix1 t)).toNat = (v t).val :=
    ⟨fun t => ⟨_, hr.2 (ValueIdx.ix1 t)⟩, fun _ => rfl⟩
  refine ⟨fun c => Cert.KernelIdeal.Frm.W5 m ρ hO c (Proc.devRef .tc Cert.KernelIdeal.main_v83), Cert.KernelIdeal.Frm.run_result m ρ hO, ?_⟩
  refine (θ_run Cert.ReferenceIdeal.defs _ _).mono (fun _ h c => ⟨(h c).1.trans ?_, (h c).2⟩)
    (Cert.ReferenceIdeal.ValueP.run (F := Ideal) m' ρ')
  obtain rfl : c = 0 := Subsingleton.elim _ _
  obtain ⟨e0, e1, e2, e3, e4, e5, e6⟩ := hagree 0
  show Cert.ReferenceIdeal.ValueP.res_main_v121 m' 0
    = Cert.KernelIdeal.Frm.W5 m ρ hO 0 (Proc.devRef .tc Cert.KernelIdeal.main_v83)
  rw [Cert.ReferenceIdeal.ReadP.val_main_v121_eq, e0, e1, e2, e3, e4, e5, e6]
  refine (Cert.RefSide.ref_is_readout _ _ _ _ _ _ _ u v hu hv).trans ?_
  rw [Cert.KernelIdeal.Frm.kernel_is_readout m ρ hO 0 u v hu hv,
    Cert.HeadEq.layer0, Cert.HeadEq.layer1, Cert.HeadEq.layer2, Cert.HeadEq.layer3, Cert.Spec.meanMul_eq_meanDiv]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
